-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S512x64 .f32 .bf16
  ∧ IdealRules.truncf_extf.Statement Cert.KernelIdeal.S512x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64 : Shape := ⟨3, ![8, 512, 64]⟩
abbrev S8x512x512 : Shape := ⟨3, ![8, 512, 512]⟩
abbrev S2x64x64 : Shape := ⟨3, ![2, 64, 64]⟩
abbrev S192x64 : Shape := ⟨2, ![192, 64]⟩
abbrev S192 : Shape := ⟨1, ![192]⟩
abbrev S_ : Shape := ⟨0, ![]⟩

class Facts : Prop where
  bcast_S_S8x512x64 : S_.BroadcastsInDim S8x512x64 (![] : Fin 0 → Fin S8x512x64.rank)
  reducesTo_S8x512x64_S_d0_1_2 : S8x512x64.ReducesTo [0, 1, 2] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part1 {F : FTy → Type} [FloatOps F] (main_arg5 : FVec F S192 .f32) (main_arg6 : FVec F S192 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192 .f32 := Host.absf main_arg5
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  main_v28

def fn {F : FTy → Type} [FloatOps F] (main_arg0 : FVec F S8x512x64 .f32) (main_arg1 : IVec S8x512x512 32) (main_arg2 : FVec F S2x64x64 .f32) (main_arg3 : FVec F S192x64 .f32) (main_arg4 : FVec F S192x64 .f32) (main_arg5 : FVec F S192 .f32) (main_arg6 : FVec F S192 .f32) : IVec S_ 1 :=
  let main_v0 : FVec F S8x512x64 .f32 := Host.absf main_arg0
  let main_cst : FVec F S_ .f32 := constant S_ .f32 0x7F800000#32
  let main_v1 : FVec F S8x512x64 .f32 := broadcastInDim S8x512x64 ![] bcast_S_S8x512x64 main_cst
  let main_v2 : IVec S8x512x64 1 := cmpf .olt main_v0 main_v1
  let main_c : IVec S_ 1 := constantI S_ 1 1#1
  let main_v3 : IVec S_ 1 := (fun x v => Host.reduce IntOp.andi x v reducesTo_S8x512x64_S_d0_1_2 h_S_) main_v2 main_c
  let main_v4 : FVec F S2x64x64 .f32 := Host.absf main_arg2
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S192x64 .f32 := Host.absf main_arg3
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S192x64 .f32 := Host.absf main_arg4
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg5 main_arg6 main_v13 main_v16
-- ==== Kernel.lean ====
abbrev S8x512x64 : Shape := ⟨3, ![8, 512, 64]⟩
abbrev S8x512x512 : Shape := ⟨3, ![8, 512, 512]⟩
abbrev S2x64x64 : Shape := ⟨3, ![2, 64, 64]⟩
abbrev S192x64 : Shape := ⟨2, ![192, 64]⟩
abbrev S192 : Shape := ⟨1, ![192]⟩
abbrev S1x192 : Shape := ⟨2, ![1, 192]⟩
abbrev S1x512x64 : Shape := ⟨3, ![1, 512, 64]⟩
abbrev S1x512x512 : Shape := ⟨3, ![1, 512, 512]⟩
abbrev S512x64 : Shape := ⟨2, ![512, 64]⟩
abbrev S512x512 : Shape := ⟨2, ![512, 512]⟩
abbrev S1x64x64 : Shape := ⟨3, ![1, 64, 64]⟩
abbrev S64x64 : Shape := ⟨2, ![64, 64]⟩
abbrev S512x192 : Shape := ⟨2, ![512, 192]⟩

abbrev nBuf : Space → Nat
  | .hbm => 10
  | .vmem => 11
  | .smem => 0
  | _ => 0

abbrev bufTy : (tb : Table) → Fin (tcTables nBuf tb) → BufTy
  | .hbm, ⟨0, _⟩ => ⟨S8x512x64, .f32⟩
  | .hbm, ⟨1, _⟩ => ⟨S8x512x512, .i32⟩
  | .hbm, ⟨2, _⟩ => ⟨S2x64x64, .f32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S1x192, .f32⟩
  | .hbm, ⟨8, _⟩ => ⟨S1x192, .f32⟩
  | .hbm, ⟨9, _⟩ => ⟨S8x512x64, .f32⟩
  | .local _ .vmem, ⟨0, _⟩ => ⟨S1x512x64, .f32⟩
  | .local _ .vmem, ⟨1, _⟩ => ⟨S1x512x64, .f32⟩
  | .local _ .vmem, ⟨2, _⟩ => ⟨S1x512x512, .i32⟩
  | .local _ .vmem, ⟨3, _⟩ => ⟨S1x512x512, .i32⟩
  | .local _ .vmem, ⟨4, _⟩ => ⟨S2x64x64, .f32⟩
  | .local _ .vmem, ⟨5, _⟩ => ⟨S192x64, .f32⟩
  | .local _ .vmem, ⟨6, _⟩ => ⟨S192x64, .f32⟩
  | .local _ .vmem, ⟨7, _⟩ => ⟨S1x192, .f32⟩
  | .local _ .vmem, ⟨8, _⟩ => ⟨S1x192, .f32⟩
  | .local _ .vmem, ⟨9, _⟩ => ⟨S1x512x64, .f32⟩
  | .local _ .vmem, ⟨10, _⟩ => ⟨S1x512x64, .f32⟩
  | _, _ => ⟨S8x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S192_S1x192 : S192.ShapeCasts S1x192
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x192_S1x192_0_0 : ∀ a, (![0, 0] : Fin 2 → Nat) a + S1x192.size a ≤ S1x192.size a
  h_S1x192 : 0 < S1x192.numel
  shapeCasts_S1x192_S192 : S1x192.ShapeCasts S192
  inb_S192x64_S192x64_0_0 : ∀ a, (![0, 0] : Fin 2 → Nat) a + S192x64.size a ≤ S192x64.size a
  h_S192x64 : 0 < S192x64.numel
  bitsLt_bf16_f32 : FTy.bits .bf16 < FTy.bits .f32
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  broadcasts_S1x192_S512x192 : S1x192.Broadcasts S512x192
  slices_S512x192_o0_0_S512x64 : S512x192.Slices ![0, 0] S512x64
  slices_S512x192_o0_64_S512x64 : S512x192.Slices ![0, 64] S512x64
  slices_S512x192_o0_128_S512x64 : S512x192.Slices ![0, 128] S512x64
  inb_S2x64x64_S1x64x64_1_0_0 : ∀ a, (![1, 0, 0] : Fin 3 → Nat) a + S1x64x64.size a ≤ S2x64x64.size a
  shapeCasts_S512x64_S1x512x64 : S512x64.ShapeCasts S1x512x64
  dot_S512x512_S512x64_S512x64_0_0_1_1_n_n_wf : DotDims.WF S512x512 S512x64 S512x64 [0] [0] [1] [1] [] []
  dot_S512x64_S64x64_S512x64_1_0_0_1_n_n_wf : DotDims.WF S512x64 S64x64 S512x64 [1] [0] [0] [1] [] []
  dot_S512x64_S192x64_S512x192_1_1_0_0_n_n_wf : DotDims.WF S512x64 S192x64 S512x192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S8x512x64.size a
  hwx0_0 : ∀ i : grid0.Coords, EltTy.bits .f32 = 32 ∨ (Rect.block (s := S8x512x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .i32 = 32 ∨ (Rect.block (s := S8x512x512) S1x512x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64x64.size a ≤ S2x64x64.size a
  hwx0_2 : ∀ i : grid0.Coords, EltTy.bits .f32 = 32 ∨ (Rect.block (s := S2x64x64) S2x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x64.size a ≤ S192x64.size a
  hwx0_3 : ∀ i : grid0.Coords, EltTy.bits .f32 = 32 ∨ (Rect.block (s := S192x64) S192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x64.size a ≤ S192x64.size a
  hwx0_4 : ∀ i : grid0.Coords, EltTy.bits .f32 = 32 ∨ (Rect.block (s := S192x64) S192x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x192.size a ≤ S1x192.size a
  hwx0_5 : ∀ i : grid0.Coords, EltTy.bits .f32 = 32 ∨ (Rect.block (s := S1x192) S1x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x192.size a ≤ S1x192.size a
  hwx0_6 : ∀ i : grid0.Coords, EltTy.bits .f32 = 32 ∨ (Rect.block (s := S1x192) S1x192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x64.size a ≤ S8x512x64.size a
  hwx0_7 : ∀ i : grid0.Coords, EltTy.bits .f32 = 32 ∨ (Rect.block (s := S8x512x64) S1x512x64.size (cc0_transform_7 i) (hinb0_7 i)).WholeWords (EltTy.packing .f32)

variable [Facts₀]

def dot_S512x512_S512x64_S512x64_0_0_1_1_n_n : DotDims S512x512 S512x64 S512x64 where
  lhsContracting := [0]
  rhsContracting := [0]
  lhsNonContracting := [1]
  rhsNonContracting := [1]
  lhsBatch := []
  rhsBatch := []
  wf := dot_S512x512_S512x64_S512x64_0_0_1_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S192x64_S512x192_1_1_0_0_n_n : DotDims S512x64 S192x64 S512x192 where
  lhsContracting := [1]
  rhsContracting := [1]
  lhsNonContracting := [0]
  rhsNonContracting := [0]
  lhsBatch := []
  rhsBatch := []
  wf := dot_S512x64_S192x64_S512x192_1_1_0_0_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S192x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x512x64 : Shape := ⟨3, ![8, 512, 64]⟩
abbrev S8x512x512 : Shape := ⟨3, ![8, 512, 512]⟩
abbrev S2x64x64 : Shape := ⟨3, ![2, 64, 64]⟩
abbrev S192x64 : Shape := ⟨2, ![192, 64]⟩
abbrev S192 : Shape := ⟨1, ![192]⟩
abbrev S512 : Shape := ⟨1, ![512]⟩
abbrev S512x512 : Shape := ⟨2, ![512, 512]⟩
abbrev S262144 : Shape := ⟨1, ![262144]⟩
abbrev S1x512 : Shape := ⟨2, ![1, 512]⟩
abbrev S_ : Shape := ⟨0, ![]⟩
abbrev S1x512x512 : Shape := ⟨3, ![1, 512, 512]⟩
abbrev S2097152 : Shape := ⟨1, ![2097152]⟩
abbrev S4096x64 : Shape := ⟨2, ![4096, 64]⟩
abbrev S1x64x64 : Shape := ⟨3, ![1, 64, 64]⟩
abbrev S64x64 : Shape := ⟨2, ![64, 64]⟩
abbrev S2097152x1 : Shape := ⟨2, ![2097152, 1]⟩
abbrev S2097152x64 : Shape := ⟨2, ![2097152, 64]⟩
abbrev S64x192 : Shape := ⟨2, ![64, 192]⟩
abbrev S4096x192 : Shape := ⟨2, ![4096, 192]⟩
abbrev S1x192 : Shape := ⟨2, ![1, 192]⟩

abbrev nBuf : Space → Nat
  | .hbm => 217
  | .vmem => 0
  | .smem => 0
  | _ => 0

abbrev hbmTy0_0 (i : Nat) : BufTy := match i % 128 with
  | 0 => ⟨S8x512x64, .f32⟩
  | 1 => ⟨S8x512x512, .i32⟩
  | 2 => ⟨S2x64x64, .f32⟩
  | 3 => ⟨S192x64, .f32⟩
  | 4 => ⟨S192x64, .f32⟩
  | 5 => ⟨S192, .f32⟩
  | 6 => ⟨S192, .f32⟩
  | 7 => ⟨S512, .i32⟩
  | 8 => ⟨S512x512, .i32⟩
  | 9 => ⟨S262144, .i32⟩
  | 10 => ⟨S512, .i32⟩
  | 11 => ⟨S1x512, .i32⟩
  | 12 => ⟨S512x512, .i32⟩
  | 13 => ⟨S262144, .i32⟩
  | 14 => ⟨S_, .i32⟩
  | 15 => ⟨S262144, .i32⟩
  | 16 => ⟨S262144, .i32⟩
  | 17 => ⟨S_, .i32⟩
  | 18 => ⟨S262144, .i32⟩
  | 19 => ⟨S262144, .i32⟩
  | 20 => ⟨S1x512x512, .i32⟩
  | 21 => ⟨S512x512, .i32⟩
  | 22 => ⟨S262144, .i32⟩
  | 23 => ⟨S_, .i32⟩
  | 24 => ⟨S262144, .i32⟩
  | 25 => ⟨S262144, .i32⟩
  | 26 => ⟨S_, .i32⟩
  | 27 => ⟨S262144, .i32⟩
  | 28 => ⟨S262144, .i32⟩
  | 29 => ⟨S1x512x512, .i32⟩
  | 30 => ⟨S512x512, .i32⟩
  | 31 => ⟨S262144, .i32⟩
  | 32 => ⟨S_, .i32⟩
  | 33 => ⟨S262144, .i32⟩
  | 34 => ⟨S262144, .i32⟩
  | 35 => ⟨S_, .i32⟩
  | 36 => ⟨S262144, .i32⟩
  | 37 => ⟨S262144, .i32⟩
  | 38 => ⟨S1x512x512, .i32⟩
  | 39 => ⟨S512x512, .i32⟩
  | 40 => ⟨S262144, .i32⟩
  | 41 => ⟨S_, .i32⟩
  | 42 => ⟨S262144, .i32⟩
  | 43 => ⟨S262144, .i32⟩
  | 44 => ⟨S_, .i32⟩
  | 45 => ⟨S262144, .i32⟩
  | 46 => ⟨S262144, .i32⟩
  | 47 => ⟨S1x512x512, .i32⟩
  | 48 => ⟨S512x512, .i32⟩
  | 49 => ⟨S262144, .i32⟩
  | 50 => ⟨S_, .i32⟩
  | 51 => ⟨S262144, .i32⟩
  | 52 => ⟨S262144, .i32⟩
  | 53 => ⟨S_, .i32⟩
  | 54 => ⟨S262144, .i32⟩
  | 55 => ⟨S262144, .i32⟩
  | 56 => ⟨S1x512x512, .i32⟩
  | 57 => ⟨S512x512, .i32⟩
  | 58 => ⟨S262144, .i32⟩
  | 59 => ⟨S_, .i32⟩
  | 60 => ⟨S262144, .i32⟩
  | 61 => ⟨S262144, .i32⟩
  | 62 => ⟨S_, .i32⟩
  | 63 => ⟨S262144, .i32⟩
  | 64 => ⟨S262144, .i32⟩
  | 65 => ⟨S1x512x512, .i32⟩
  | 66 => ⟨S512x512, .i32⟩
  | 67 => ⟨S262144, .i32⟩
  | 68 => ⟨S_, .i32⟩
  | 69 => ⟨S262144, .i32⟩
  | 70 => ⟨S262144, .i32⟩
  | 71 => ⟨S_, .i32⟩
  | 72 => ⟨S262144, .i32⟩
  | 73 => ⟨S262144, .i32⟩
  | 74 => ⟨S1x512x512, .i32⟩
  | 75 => ⟨S512x512, .i32⟩
  | 76 => ⟨S262144, .i32⟩
  | 77 => ⟨S_, .i32⟩
  | 78 => ⟨S262144, .i32⟩
  | 79 => ⟨S262144, .i32⟩
  | 80 => ⟨S_, .i32⟩
  | 81 => ⟨S262144, .i32⟩
  | 82 => ⟨S262144, .i32⟩
  | 83 => ⟨S1x512x512, .i32⟩
  | 84 => ⟨S512x512, .i32⟩
  | 85 => ⟨S262144, .i32⟩
  | 86 => ⟨S2097152, .i32⟩
  | 87 => ⟨S2097152, .i32⟩
  | 88 => ⟨S2097152, .i32⟩
  | 89 => ⟨S4096x64, .f32⟩
  | 90 => ⟨S1x64x64, .f32⟩
  | 91 => ⟨S64x64, .f32⟩
  | 92 => ⟨S4096x64, .f32⟩
  | 93 => ⟨S_, .i32⟩
  | 94 => ⟨S2097152, .i32⟩
  | 95 => ⟨S2097152, .i1⟩
  | 96 => ⟨S_, .i32⟩
  | 97 => ⟨S2097152, .i32⟩
  | 98 => ⟨S2097152, .i32⟩
  | 99 => ⟨S2097152, .i32⟩
  | 100 => ⟨S2097152x1, .i32⟩
  | 101 => ⟨S2097152x64, .f32⟩
  | 102 => ⟨S2097152, .f32⟩
  | 103 => ⟨S2097152x1, .f32⟩
  | 104 => ⟨S2097152x64, .f32⟩
  | 105 => ⟨S2097152x64, .f32⟩
  | 106 => ⟨S_, .f32⟩
  | 107 => ⟨S4096x64, .f32⟩
  | 108 => ⟨S2097152x1, .i32⟩
  | 109 => ⟨S4096x64, .f32⟩
  | 110 => ⟨S64x192, .f32⟩
  | 111 => ⟨S4096x192, .f32⟩
  | 112 => ⟨S1x192, .f32⟩
  | 113 => ⟨S4096x192, .f32⟩
  | 114 => ⟨S4096x192, .f32⟩
  | 115 => ⟨S64x192, .f32⟩
  | 116 => ⟨S4096x192, .f32⟩
  | 117 => ⟨S1x192, .f32⟩
  | 118 => ⟨S4096x192, .f32⟩
  | 119 => ⟨S4096x192, .f32⟩
  | 120 => ⟨S4096x64, .f32⟩
  | 121 => ⟨S4096x64, .f32⟩
  | 122 => ⟨S4096x64, .f32⟩
  | 123 => ⟨S4096x64, .f32⟩
  | 124 => ⟨S4096x64, .f32⟩
  | 125 => ⟨S4096x64, .f32⟩
  | 126 => ⟨S4096x64, .f32⟩
  | 127 => ⟨S4096x64, .f32⟩
  | _ => ⟨S8x512x64, .f32⟩

abbrev hbmTy0_1 (i : Nat) : BufTy := match i % 128 with
  | 0 => ⟨S4096x64, .f32⟩
  | 1 => ⟨S_, .f32⟩
  | 2 => ⟨S4096x64, .f32⟩
  | 3 => ⟨S4096x64, .f32⟩
  | 4 => ⟨S_, .f32⟩
  | 5 => ⟨S4096x64, .f32⟩
  | 6 => ⟨S4096x64, .f32⟩
  | 7 => ⟨S4096x64, .f32⟩
  | 8 => ⟨S4096x64, .f32⟩
  | 9 => ⟨S4096x64, .f32⟩
  | 10 => ⟨S_, .f32⟩
  | 11 => ⟨S4096x64, .f32⟩
  | 12 => ⟨S4096x64, .f32⟩
  | 13 => ⟨S_, .f32⟩
  | 14 => ⟨S4096x64, .f32⟩
  | 15 => ⟨S4096x64, .f32⟩
  | 16 => ⟨S4096x64, .f32⟩
  | 17 => ⟨S4096x64, .f32⟩
  | 18 => ⟨S4096x64, .f32⟩
  | 19 => ⟨S_, .f32⟩
  | 20 => ⟨S4096x64, .f32⟩
  | 21 => ⟨S4096x64, .f32⟩
  | 22 => ⟨S4096x64, .f32⟩
  | 23 => ⟨S4096x64, .f32⟩
  | 24 => ⟨S4096x64, .f32⟩
  | 25 => ⟨S1x64x64, .f32⟩
  | 26 => ⟨S64x64, .f32⟩
  | 27 => ⟨S4096x64, .f32⟩
  | 28 => ⟨S_, .i32⟩
  | 29 => ⟨S2097152, .i32⟩
  | 30 => ⟨S2097152, .i1⟩
  | 31 => ⟨S_, .i32⟩
  | 32 => ⟨S2097152, .i32⟩
  | 33 => ⟨S2097152, .i32⟩
  | 34 => ⟨S2097152, .i32⟩
  | 35 => ⟨S2097152x1, .i32⟩
  | 36 => ⟨S2097152x64, .f32⟩
  | 37 => ⟨S2097152, .f32⟩
  | 38 => ⟨S2097152x1, .f32⟩
  | 39 => ⟨S2097152x64, .f32⟩
  | 40 => ⟨S2097152x64, .f32⟩
  | 41 => ⟨S_, .f32⟩
  | 42 => ⟨S4096x64, .f32⟩
  | 43 => ⟨S2097152x1, .i32⟩
  | 44 => ⟨S4096x64, .f32⟩
  | 45 => ⟨S64x192, .f32⟩
  | 46 => ⟨S4096x192, .f32⟩
  | 47 => ⟨S1x192, .f32⟩
  | 48 => ⟨S4096x192, .f32⟩
  | 49 => ⟨S4096x192, .f32⟩
  | 50 => ⟨S64x192, .f32⟩
  | 51 => ⟨S4096x192, .f32⟩
  | 52 => ⟨S1x192, .f32⟩
  | 53 => ⟨S4096x192, .f32⟩
  | 54 => ⟨S4096x192, .f32⟩
  | 55 => ⟨S4096x64, .f32⟩
  | 56 => ⟨S4096x64, .f32⟩
  | 57 => ⟨S4096x64, .f32⟩
  | 58 => ⟨S4096x64, .f32⟩
  | 59 => ⟨S4096x64, .f32⟩
  | 60 => ⟨S4096x64, .f32⟩
  | 61 => ⟨S4096x64, .f32⟩
  | 62 => ⟨S4096x64, .f32⟩
  | 63 => ⟨S4096x64, .f32⟩
  | 64 => ⟨S_, .f32⟩
  | 65 => ⟨S4096x64, .f32⟩
  | 66 => ⟨S4096x64, .f32⟩
  | 67 => ⟨S_, .f32⟩
  | 68 => ⟨S4096x64, .f32⟩
  | 69 => ⟨S4096x64, .f32⟩
  | 70 => ⟨S4096x64, .f32⟩
  | 71 => ⟨S4096x64, .f32⟩
  | 72 => ⟨S4096x64, .f32⟩
  | 73 => ⟨S_, .f32⟩
  | 74 => ⟨S4096x64, .f32⟩
  | 75 => ⟨S4096x64, .f32⟩
  | 76 => ⟨S_, .f32⟩
  | 77 => ⟨S4096x64, .f32⟩
  | 78 => ⟨S4096x64, .f32⟩
  | 79 => ⟨S4096x64, .f32⟩
  | 80 => ⟨S4096x64, .f32⟩
  | 81 => ⟨S4096x64, .f32⟩
  | 82 => ⟨S_, .f32⟩
  | 83 => ⟨S4096x64, .f32⟩
  | 84 => ⟨S4096x64, .f32⟩
  | 85 => ⟨S4096x64, .f32⟩
  | 86 => ⟨S4096x64, .f32⟩
  | 87 => ⟨S4096x64, .f32⟩
  | 88 => ⟨S8x512x64, .f32⟩
  | _ => ⟨S8x512x64, .f32⟩

abbrev hbmTy (i : Nat) : BufTy := match i / 128 with
  | 0 => hbmTy0_0 i
  | 1 => hbmTy0_1 i
  | _ => ⟨S8x512x64, .f32⟩

abbrev bufTy : (tb : Table) → Fin (tcTables nBuf tb) → BufTy
  | .hbm, ⟨i, _⟩ => hbmTy i
  | _, _ => ⟨S8x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_15 : Ref sig .tc := ⟨.hbm, 93, rfl⟩
abbrev main_v70 : Ref sig .tc := ⟨.hbm, 94, rfl⟩
abbrev main_v71 : Ref sig .tc := ⟨.hbm, 95, rfl⟩
abbrev main_c_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_17 : Ref sig .tc := ⟨.hbm, 129, rfl⟩
abbrev main_v103 : Ref sig .tc := ⟨.hbm, 130, rfl⟩
abbrev main_v104 : Ref sig .tc := ⟨.hbm, 131, rfl⟩
abbrev main_cst_18 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_19 : Ref sig .tc := ⟨.hbm, 138, rfl⟩
abbrev main_v110 : Ref sig .tc := ⟨.hbm, 139, rfl⟩
abbrev main_v111 : Ref sig .tc := ⟨.hbm, 140, rfl⟩
abbrev main_cst_20 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_21 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_c_22 : Ref sig .tc := ⟨.hbm, 156, rfl⟩
abbrev main_v125 : Ref sig .tc := ⟨.hbm, 157, rfl⟩
abbrev main_v126 : Ref sig .tc := ⟨.hbm, 158, rfl⟩
abbrev main_c_23 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_24 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_25 : Ref sig .tc := ⟨.hbm, 192, rfl⟩
abbrev main_v158 : Ref sig .tc := ⟨.hbm, 193, rfl⟩
abbrev main_v159 : Ref sig .tc := ⟨.hbm, 194, rfl⟩
abbrev main_cst_26 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_27 : Ref sig .tc := ⟨.hbm, 201, rfl⟩
abbrev main_v165 : Ref sig .tc := ⟨.hbm, 202, rfl⟩
abbrev main_v166 : Ref sig .tc := ⟨.hbm, 203, rfl⟩
abbrev main_cst_28 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_cst_29 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩

abbrev nD : Nat := 1
abbrev τ : Topo := Topo.v7x

variable {F : FTy → Type} [FloatOps F]

class Facts₀ : Prop where
  bcast_S512_S512x512_0 : S512.BroadcastsInDim S512x512 (![0] : Fin 1 → Fin S512x512.rank)
  shapeCasts_S512x512_S262144 : S512x512.ShapeCasts S262144
  shapeCasts_S512_S1x512 : S512.ShapeCasts S1x512
  bcast_S1x512_S512x512_0_1 : S1x512.BroadcastsInDim S512x512 (![0, 1] : Fin 2 → Fin S512x512.rank)
  bcast_S_S262144 : S_.BroadcastsInDim S262144 (![] : Fin 0 → Fin S262144.rank)
  slices_S8x512x512_S1x512x512_0_0_0 : S8x512x512.Slices ![0, 0, 0] S1x512x512
  shapeCasts_S1x512x512_S512x512 : S1x512x512.ShapeCasts S512x512
  slices_S8x512x512_S1x512x512_1_0_0 : S8x512x512.Slices ![1, 0, 0] S1x512x512
  slices_S8x512x512_S1x512x512_2_0_0 : S8x512x512.Slices ![2, 0, 0] S1x512x512
  slices_S8x512x512_S1x512x512_3_0_0 : S8x512x512.Slices ![3, 0, 0] S1x512x512
  slices_S8x512x512_S1x512x512_4_0_0 : S8x512x512.Slices ![4, 0, 0] S1x512x512
  slices_S8x512x512_S1x512x512_5_0_0 : S8x512x512.Slices ![5, 0, 0] S1x512x512
  slices_S8x512x512_S1x512x512_6_0_0 : S8x512x512.Slices ![6, 0, 0] S1x512x512
  slices_S8x512x512_S1x512x512_7_0_0 : S8x512x512.Slices ![7, 0, 0] S1x512x512
  concatenates_S262144_S262144_S262144_S262144_S262144_S262144_S262144_S262144_S2097152_d0 : Shape.Concatenates [S262144, S262144, S262144, S262144, S262144, S262144, S262144, S262144] S2097152 0
  shapeCasts_S8x512x64_S4096x64 : S8x512x64.ShapeCasts S4096x64
  slices_S2x64x64_S1x64x64_0_0_0 : S2x64x64.Slices ![0, 0, 0] S1x64x64
  shapeCasts_S1x64x64_S64x64 : S1x64x64.ShapeCasts S64x64
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x64_0_1 : S2097152x1.BroadcastsInDim S2097152x64 (![0, 1] : Fin 2 → Fin S2097152x64.rank)
  bcast_S_S4096x64 : S_.BroadcastsInDim S4096x64 (![] : Fin 0 → Fin S4096x64.rank)
  transposes_S192x64_S64x192_1_0 : S192x64.Transposes [1, 0] S64x192
  bcast_S192_S1x192_1 : S192.BroadcastsInDim S1x192 (![1] : Fin 1 → Fin S1x192.rank)
  bcast_S1x192_S4096x192_0_1 : S1x192.BroadcastsInDim S4096x192 (![0, 1] : Fin 2 → Fin S4096x192.rank)
  slices_S4096x192_S4096x64_0_0 : S4096x192.Slices ![0, 0] S4096x64
  slices_S4096x192_S4096x64_0_64 : S4096x192.Slices ![0, 64] S4096x64
  slices_S4096x192_S4096x64_0_128 : S4096x192.Slices ![0, 128] S4096x64
  slices_S2x64x64_S1x64x64_1_0_0 : S2x64x64.Slices ![1, 0, 0] S1x64x64
  shapeCasts_S4096x64_S8x512x64 : S4096x64.ShapeCasts S8x512x64
  dot_S4096x64_S64x64_S4096x64_1_0_0_1_n_n_wf : DotDims.WF S4096x64 S64x64 S4096x64 [1] [0] [0] [1] [] []
  gather_S4096x64_S2097152x1_S2097152x64_1_0_n_n_0_1_164_wf : GatherDims.WF S4096x64 S2097152x1 S2097152x64 [1] [0] [] [0] [] 1 ![1, 64]
  scatter_S4096x64_S2097152x1_S2097152x64_1_0_0_1_wf : ScatterDims.WF S4096x64 S2097152x1 S2097152x64 [1] [0] [0] 1
  dot_S4096x64_S64x192_S4096x192_1_0_0_1_n_n_wf : DotDims.WF S4096x64 S64x192 S4096x192 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S4096x64_S2097152x1_S2097152x64_1_0_n_n_0_1_164 : GatherDims S4096x64 S2097152x1 S2097152x64 where
  offsetDims := [1]
  collapsedSliceDims := [0]
  operandBatchingDims := []
  startIndicesBatchingDims := []
  startIndexMap := [0]
  indexVectorDim := 1
  sliceSizes := ![1, 64]
  wf := gather_S4096x64_S2097152x1_S2097152x64_1_0_n_n_0_1_164_wf
def scatter_S4096x64_S2097152x1_S2097152x64_1_0_0_1 : ScatterDims S4096x64 S2097152x1 S2097152x64 where
  updateWindowDims := [1]
  insertedWindowDims := [0]
  scatterDimsToOperandDims := [0]
  indexVectorDim := 1
  wf := scatter_S4096x64_S2097152x1_S2097152x64_1_0_0_1_wf
def dot_S4096x64_S64x192_S4096x192_1_0_0_1_n_n : DotDims S4096x64 S64x192 S4096x192 where
  lhsContracting := [1]
  rhsContracting := [0]
  lhsNonContracting := [0]
  rhsNonContracting := [1]
  lhsBatch := []
  rhsBatch := []
  wf := dot_S4096x64_S64x192_S4096x192_1_0_0_1_n_n_wf

class Facts : Prop extends Facts₀ where

variable [Facts]
-- ==== Proof.Spec.lean ====
/-
  The specification both programs are proved against: two layers of a gated graph network on eight graphs of 512 nodes
  with 64 features, over the real numbers.

  For one graph, with node states H (512 × 64), integer edge weights A (s, d) from source s to destination d, a layer
  matrix W (64 × 64) and the gate weights:
    message      M (s, o)   = ∑ k, H (s, k) · W (k, o)
    aggregate    G (d, o)   = ∑ s, M (s, o) · A (s, d)          -- every source's message, weighted by the edge
    gates        gi (d, j)  = ∑ k, G (d, k) · w_ih (j, k) + b_ih j ,  gh (d, j) = ∑ k, H (d, k) · w_hh (j, k) + b_hh j
    r = σ (gi₀ + gh₀),  z = σ (gi₁ + gh₁),  n = tanh (gi₂ + r · gh₂)      (thirds of the 192 gate columns)
    new state    H' (d, o)  = (1 − z) · n + z · H (d, o)
  with σ x = 1 / (1 + e⁻ˣ). The result is the state after two layers, the second with the second layer matrix.
  Everything is a real number as soon as the inputs are: that is what lets sums be exchanged and products distributed.
-/
import Idealize.ShloMosaic.PureOps.Ideal.Laws
import Idealize.ShloMosaic.Lib.ValueIdx

noncomputable section

namespace GGNN

open Idealize.ShloMosaic Idealize.ShloMosaic.ValueIdx
open scoped BigOperators

/-- A real matrix with literal extents. -/
abbrev Mat (n m : Nat) := Fin n → Fin m → ℝ

/-- The logistic function on the reals. -/
def sgm (x : ℝ) : ℝ := (1 + Real.exp (-x))⁻¹

/-- The three thirds of the 192 gate columns: column o of the reset, update and candidate parts. -/
abbrev c0 (o : Fin 64) : Fin 192 := ⟨o.val, by omega⟩
abbrev c1 (o : Fin 64) : Fin 192 := ⟨o.val + 64, by omega⟩
abbrev c2 (o : Fin 64) : Fin 192 := ⟨o.val + 128, by omega⟩

/-- Every source's message into destination d: ∑ s, (∑ k, H (s, k) · W (k, o)) · A (s, d). -/
def aggR (A : Mat 512 512) (H : Mat 512 64) (W : Mat 64 64) : Mat 512 64 :=
  fun d o => ∑ s : Fin 512, (∑ k : Fin 64, H s k * W k o) * A s d

/-- A gate pre-activation: G · wᵀ + b. -/
def linR (G : Mat 512 64) (w : Mat 192 64) (b : Fin 192 → ℝ) : Mat 512 192 :=
  fun d j => (∑ k : Fin 64, G d k * w j k) + b j

/-- The gated update from the two pre-activations and the old state. -/
def gruR (gi gh : Mat 512 192) (H : Mat 512 64) : Mat 512 64 :=
  fun d o =>
    (1 - sgm (gi d (c1 o) + gh d (c1 o))) * Real.tanh (gi d (c2 o) + sgm (gi d (c0 o) + gh d (c0 o)) * gh d (c2 o))
      + sgm (gi d (c1 o) + gh d (c1 o)) * H d o

/-- One layer on one graph. -/
def layerR (A : Mat 512 512) (H : Mat 512 64) (W : Mat 64 64) (wih whh : Mat 192 64) (bih bhh : Fin 192 → ℝ) : Mat 512 64 :=
  gruR (linR (aggR A H W) wih bih) (linR H whh bhh) H

/-- The seven argument arrays with their floats as real numbers, indexed as the programs index them. -/
structure Inputs where
  x : (⟨3, ![8, 512, 64]⟩ : Shape).Idx → ℝ
  adj : (⟨3, ![8, 512, 512]⟩ : Shape).Idx → BitVec 32
  w : (⟨3, ![2, 64, 64]⟩ : Shape).Idx → ℝ
  wih : (⟨2, ![192, 64]⟩ : Shape).Idx → ℝ
  whh : (⟨2, ![192, 64]⟩ : Shape).Idx → ℝ
  bih : (⟨1, ![192]⟩ : Shape).Idx → ℝ
  bhh : (⟨1, ![192]⟩ : Shape).Idx → ℝ

namespace Inputs
variable (I : Inputs)
/-- Graph b's node states. -/
def X (b : Fin 8) : Mat 512 64 := fun d k => I.x (ix3 b d k)
/-- Graph b's edge weights as real numbers (the integers read signed). -/
def A (b : Fin 8) : Mat 512 512 := fun s d => ((I.adj (ix3 b s d)).toInt : ℝ)
/-- Layer l's matrix. -/
def W (l : Fin 2) : Mat 64 64 := fun k o => I.w (ix3 l k o)
def Wih : Mat 192 64 := fun j k => I.wih (ix2 j k)
def Whh : Mat 192 64 := fun j k => I.whh (ix2 j k)
def Bih : Fin 192 → ℝ := fun j => I.bih (ix1 j)
def Bhh : Fin 192 → ℝ := fun j => I.bhh (ix1 j)
/-- Graph b after the first layer. -/
def H1 (b : Fin 8) : Mat 512 64 := layerR (I.A b) (I.X b) (I.W 0) I.Wih I.Whh I.Bih I.Bhh
/-- Graph b after the second layer. -/
def H2 (b : Fin 8) : Mat 512 64 := layerR (I.A b) (I.H1 b) (I.W 1) I.Wih I.Whh I.Bih I.Bhh
end Inputs

/-- The result array: graph b, node d, feature o after two layers, as an extended real. -/
def result (I : Inputs) : (⟨3, ![8, 512, 64]⟩ : Shape).Idx → EReal :=
  fun i => ((I.H2 (i 0) (i 1) (i 2) : ℝ) : EReal)

/-- Row d of graph b among the 4096 rows of the flattened states. -/
abbrev row (b : Fin 8) (d : Fin 512) : Fin 4096 := ⟨b.val * 512 + d.val, by omega⟩

/-! ## Real numbers inside the extended reals -/

/-- A finite sum of real numbers, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The float word of 1.0 is the real number 1. -/
theorem ofBits_one_f32 : Ideal.ofBits .f32 0x3F800000#32 = ((1 : ℝ) : EReal) := by
  simp [Ideal.ofBits, Ideal.ieee, -EReal.coe_mul]; norm_num

/-- The logistic function of a real number, as the extended reals compute it. -/
theorem logistic_coe (r : ℝ) : Ideal.logistic (r : EReal) = ((sgm r : ℝ) : EReal) := by
  rw [Ideal.logistic_coe]; rfl

/-- The host's expansion 1 / (1 + e^(−x)) of a real number is the same logistic value. -/
theorem div_one_add_exp_neg_coe (r : ℝ) :
    Ideal.div ((1 : ℝ) : EReal) (((1 : ℝ) : EReal) + Ideal.exp (-(r : EReal))) = ((sgm r : ℝ) : EReal) := by
  have h := Ideal.logistic_coe (r := r)
  unfold Ideal.logistic at h
  rw [EReal.coe_one]
  exact h.trans rfl

end GGNN

end
-- ==== Proof.Finite.lean ====
/-
  From the precondition to real numbers: every float input is finite, so each float argument array is the image of an
  array of real numbers. The integer adjacency is taken as it is.

  The predicate is the conjunction, over the six float arrays, of "every element x has |x| < +∞". The conjunction being
  one gives each conjunct; a conjunct is an and-reduction over all axes, so every comparison under it is one; the float
  word 0x7F800000 is +∞, and an extended real x with max x (−x) < ⊤ is neither ⊤ nor ⊥, hence a real number. Choosing
  the real number at every index gives the array of reals.
-/
import proofs.«104106_g32573031973289_fold_wed_c4_852_6_alg».proof.Defs
import proofs.«104106_g32573031973289_fold_wed_c4_852_6_alg».proof.Proof.Gen.Pre_finite_inputs
import proofs.«104106_g32573031973289_fold_wed_c4_852_6_alg».proof.Proof.Spec
import Idealize.ShloMosaic.Lib.ReduceAll

noncomputable section

namespace Cert.Finite

open Idealize.ShloMosaic Idealize.ShloMosaic.ValueIdx Cert.Pre_finite_inputs

/-- The shape of rank zero has one index. -/
instance subsingleton_idx0 : Subsingleton (⟨0, ![]⟩ : Shape).Idx := ⟨fun a b => funext fun d => d.elim0⟩

/-- An extended real whose absolute value is below the float word of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  induction x using EReal.rec with
  | bot => simp at hlt
  | coe r => exact ⟨r, rfl⟩
  | top => simp at hlt

/-- If every element of a float array has absolute value below +∞ (the and-reduction of the comparisons over all axes is
    one), the array is an array of real numbers. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (a : FVec Ideal s .f32) (init : IVec (⟨0, ![]⟩ : Shape) 1)
    (e : Host.reduce IntOp.andi
          (cmpf .olt (Host.absf a) (broadcastInDim s ![] hb (constant (F := Ideal) (⟨0, ![]⟩ : Shape) .f32 0x7F800000#32)))
          init hr hu ix0 = 1#1) :
    ∃ f : s.Idx → ℝ, a = fun i => ((f i : ℝ) : EReal) := by
  have hall : ∀ i, ∃ r : ℝ, a i = (r : EReal) := fun i =>
    real_of_abs_lt_inf (a i) (Host.reduce_andi_all _ init hr hu ix0 e i)
  choose f hf using hall
  exact ⟨f, funext hf⟩

/-- If the finiteness predicate of the seven argument arrays is all ones, the six float arrays are arrays of real numbers. -/
theorem exists_inputs (a0 : FVec Ideal S8x512x64 .f32) (a1 : IVec S8x512x512 32) (a2 : FVec Ideal S2x64x64 .f32)
    (a3 a4 : FVec Ideal S192x64 .f32) (a5 a6 : FVec Ideal S192 .f32)
    (h : Cert.Pre_finite_inputs.fn (F := Ideal) a0 a1 a2 a3 a4 a5 a6 = fun _ => 1#1) :
    ∃ I : GGNN.Inputs, a0 = (fun i => ((I.x i : ℝ) : EReal)) ∧ a1 = I.adj ∧ a2 = (fun i => ((I.w i : ℝ) : EReal))
      ∧ a3 = (fun i => ((I.wih i : ℝ) : EReal)) ∧ a4 = (fun i => ((I.whh i : ℝ) : EReal))
      ∧ a5 = (fun i => ((I.bih i : ℝ) : EReal)) ∧ a6 = (fun i => ((I.bhh i : ℝ) : EReal)) := by
  have h0 := congrFun h ValueIdx.ix0
  dsimp only [Cert.Pre_finite_inputs.fn, Cert.Pre_finite_inputs.fn_part1, andi] at h0
  simp only [IntOp.andi_eq_one] at h0
  obtain ⟨⟨⟨⟨⟨c0, c2⟩, c3⟩, c4⟩, c5⟩, c6⟩ := h0
  obtain ⟨f0, e0⟩ := real_of_all_abs_lt_inf _ _ _ a0 _ c0
  obtain ⟨f2, e2⟩ := real_of_all_abs_lt_inf _ _ _ a2 _ c2
  obtain ⟨f3, e3⟩ := real_of_all_abs_lt_inf _ _ _ a3 _ c3
  obtain ⟨f4, e4⟩ := real_of_all_abs_lt_inf _ _ _ a4 _ c4
  obtain ⟨f5, e5⟩ := real_of_all_abs_lt_inf _ _ _ a5 _ c5
  obtain ⟨f6, e6⟩ := real_of_all_abs_lt_inf _ _ _ a6 _ c6
  exact ⟨⟨f0, a1, f2, f3, f4, f5, f6⟩, e0, rfl, e2, e3, e4, e5, e6⟩

end Cert.Finite

end
-- ==== Proof.KerValue.lean ====
/-
  What one grid point of the kernel computes, entry by entry: from graph b's blocks of the arguments, the block it
  writes is graph b's states after two layers.

  Each layer is read in four steps. The three matrix products are sums over one contracted coordinate. On real entries
  the split of the neighbour sums into a leading part and a remainder adds nothing (t − t = 0), and the aggregate
  (Aᵀ·h)·W is the specification's sum over sources of the messages h·W by exchanging the two sums. The gate
  pre-activations are a product against a transposed weight matrix plus a bias row. The gated update is pointwise.
-/
import proofs.«104106_g32573031973289_fold_wed_c4_852_6_alg».proof.Proof.Gen.KernelIdeal.Value
import proofs.«104106_g32573031973289_fold_wed_c4_852_6_alg».proof.Proof.Spec
import Idealize.ShloMosaic.Lib.ValueLayout

noncomputable section

namespace Cert.KernelIdeal.KerValue

open Cert.KernelIdeal Cert.KernelIdeal.Gen Idealize.ShloMosaic Idealize.ShloMosaic.ValueIdx GGNN
open scoped BigOperators

/-! ## The three matrix products read at an index -/

/-- Aᵀ · v, contracting the first axis of both operands: entry (d, k) sums a (s, d) · v (s, k) over s. -/
theorem mm_tA (a : FVec Ideal S512x512 .bf16) (v : FVec Ideal S512x64 .bf16) (d : Fin 512) (k : Fin 64) :
    matmul dot_S512x512_S512x64_S512x64_0_0_1_1_n_n none a v (constant (F := Ideal) S512x64 .f32 0x00000000#32) (ix2 d k)
      = ∑ s : Fin 512, a (ix2 s d) * v (ix2 s k) := by
  show FloatOps.matmul dot_S512x512_S512x64_S512x64_0_0_1_1_n_n none a v (constant (F := Ideal) S512x64 .f32 0x00000000#32) (ix2 d k) = _
  rw [Ideal.matmul_constant_zero_apply,
    ← Equiv.sum_comp (contrEquiv1 dot_S512x512_S512x64_S512x64_0_0_1_1_n_n 512 rfl rfl).symm]
  refine Finset.sum_congr rfl fun c _ => ?_
  have c2 := contrEquiv1_symm_val dot_S512x512_S512x64_S512x64_0_0_1_1_n_n 512 rfl rfl c
  have l2 : dot_S512x512_S512x64_S512x64_0_0_1_1_n_n.lhsIdx (ix2 d k) ((contrEquiv1 _ 512 rfl rfl).symm c) = ix2 c d := by
    funext ax; apply Fin.ext
    match ax with
    | ⟨0, _⟩ => simp [DotDims.lhsIdx, dot_S512x512_S512x64_S512x64_0_0_1_1_n_n]; exact c2
    | ⟨1, _⟩ => simp [DotDims.lhsIdx, dot_S512x512_S512x64_S512x64_0_0_1_1_n_n]; rfl
  have r2 : dot_S512x512_S512x64_S512x64_0_0_1_1_n_n.rhsIdx (ix2 d k) ((contrEquiv1 _ 512 rfl rfl).symm c) = ix2 c k := by
    funext ax; apply Fin.ext
    match ax with
    | ⟨0, _⟩ => simp [DotDims.rhsIdx, dot_S512x512_S512x64_S512x64_0_0_1_1_n_n]; exact c2
    | ⟨1, _⟩ => simp [DotDims.rhsIdx, dot_S512x512_S512x64_S512x64_0_0_1_1_n_n]; rfl
  rw [l2, r2]

/-- v · w, rows by columns: entry (d, o) sums v (d, k) · w (k, o) over k. -/
theorem mm_W (v : FVec Ideal S512x64 .bf16) (w : FVec Ideal S64x64 .bf16) (d : Fin 512) (o : Fin 64) :
    matmul dot_S512x64_S64x64_S512x64_1_0_0_1_n_n none v w (constant (F := Ideal) S512x64 .f32 0x00000000#32) (ix2 d o)
      = ∑ k : Fin 64, v (ix2 d k) * w (ix2 k o) := by
  show FloatOps.matmul dot_S512x64_S64x64_S512x64_1_0_0_1_n_n none v w (constant (F := Ideal) S512x64 .f32 0x00000000#32) (ix2 d o) = _
  rw [Ideal.matmul_constant_zero_apply,
    ← Equiv.sum_comp (contrEquiv1 dot_S512x64_S64x64_S512x64_1_0_0_1_n_n 64 rfl rfl).symm]
  refine Finset.sum_congr rfl fun c _ => ?_
  have c2 := contrEquiv1_symm_val dot_S512x64_S64x64_S512x64_1_0_0_1_n_n 64 rfl rfl c
  have l2 : dot_S512x64_S64x64_S512x64_1_0_0_1_n_n.lhsIdx (ix2 d o) ((contrEquiv1 _ 64 rfl rfl).symm c) = ix2 d c := by
    funext ax; apply Fin.ext
    match ax with
    | ⟨0, _⟩ => simp [DotDims.lhsIdx, dot_S512x64_S64x64_S512x64_1_0_0_1_n_n]; rfl
    | ⟨1, _⟩ => simp [DotDims.lhsIdx, dot_S512x64_S64x64_S512x64_1_0_0_1_n_n]; exact c2
  have r2 : dot_S512x64_S64x64_S512x64_1_0_0_1_n_n.rhsIdx (ix2 d o) ((contrEquiv1 _ 64 rfl rfl).symm c) = ix2 c o := by
    funext ax; apply Fin.ext
    match ax with
    | ⟨0, _⟩ => simp [DotDims.rhsIdx, dot_S512x64_S64x64_S512x64_1_0_0_1_n_n]; exact c2
    | ⟨1, _⟩ => simp [DotDims.rhsIdx, dot_S512x64_S64x64_S512x64_1_0_0_1_n_n]; rfl
  rw [l2, r2]

/-- v · wᵀ, contracting the second axis of both operands: entry (d, j) sums v (d, k) · w (j, k) over k. -/
theorem mm_T (v : FVec Ideal S512x64 .bf16) (w : FVec Ideal S192x64 .bf16) (d : Fin 512) (j : Fin 192) :
    matmul dot_S512x64_S192x64_S512x192_1_1_0_0_n_n none v w (constant (F := Ideal) S512x192 .f32 0x00000000#32) (ix2 d j)
      = ∑ k : Fin 64, v (ix2 d k) * w (ix2 j k) := by
  show FloatOps.matmul dot_S512x64_S192x64_S512x192_1_1_0_0_n_n none v w (constant (F := Ideal) S512x192 .f32 0x00000000#32) (ix2 d j) = _
  rw [Ideal.matmul_constant_zero_apply,
    ← Equiv.sum_comp (contrEquiv1 dot_S512x64_S192x64_S512x192_1_1_0_0_n_n 64 rfl rfl).symm]
  refine Finset.sum_congr rfl fun c _ => ?_
  have c2 := contrEquiv1_symm_val dot_S512x64_S192x64_S512x192_1_1_0_0_n_n 64 rfl rfl c
  have l2 : dot_S512x64_S192x64_S512x192_1_1_0_0_n_n.lhsIdx (ix2 d j) ((contrEquiv1 _ 64 rfl rfl).symm c) = ix2 d c := by
    funext ax; apply Fin.ext
    match ax with
    | ⟨0, _⟩ => simp [DotDims.lhsIdx, dot_S512x64_S192x64_S512x192_1_1_0_0_n_n]; rfl
    | ⟨1, _⟩ => simp [DotDims.lhsIdx, dot_S512x64_S192x64_S512x192_1_1_0_0_n_n]; exact c2
  have r2 : dot_S512x64_S192x64_S512x192_1_1_0_0_n_n.rhsIdx (ix2 d j) ((contrEquiv1 _ 64 rfl rfl).symm c) = ix2 j c := by
    funext ax; apply Fin.ext
    match ax with
    | ⟨0, _⟩ => simp [DotDims.rhsIdx, dot_S512x64_S192x64_S512x192_1_1_0_0_n_n]; rfl
    | ⟨1, _⟩ => simp [DotDims.rhsIdx, dot_S512x64_S192x64_S512x192_1_1_0_0_n_n]; exact c2
  rw [l2, r2]

/-! ## Sums of products of real numbers -/

/-- A sum of products of real numbers, computed in the extended reals, is the real sum. -/
theorem sum_coe_mul {n : Nat} (f g : Fin n → ℝ) :
    ∑ k : Fin n, ((f k : ℝ) : EReal) * ((g k : ℝ) : EReal) = ((∑ k : Fin n, f k * g k : ℝ) : EReal) := by
  rw [GGNN.coe_sum]
  exact Finset.sum_congr rfl fun k _ => (EReal.coe_mul _ _).symm

/-- The aggregate computed destination first, (Aᵀ·H)·W, is the specification's sum over sources of the messages. -/
theorem agg_law (A : Mat 512 512) (H : Mat 512 64) (W : Mat 64 64) (d : Fin 512) (o : Fin 64) :
    ∑ k : Fin 64, (∑ s : Fin 512, A s d * H s k) * W k o = aggR A H W d o := by
  unfold aggR
  simp only [Finset.sum_mul]
  rw [Finset.sum_comm]
  exact Finset.sum_congr rfl fun s _ => Finset.sum_congr rfl fun k _ => by ring

/-! ## The stages of a layer, over vectors whose entries are real numbers -/

/-- The neighbour sums Aᵀ·h. -/
theorem t_apply (a : FVec Ideal S512x512 .bf16) (h : FVec Ideal S512x64 .bf16) (A : Mat 512 512) (H : Mat 512 64)
    (ha : ∀ s d, a (ix2 s d) = ((A s d : ℝ) : EReal)) (hh : ∀ d k, h (ix2 d k) = ((H d k : ℝ) : EReal))
    (d : Fin 512) (k : Fin 64) :
    matmul dot_S512x512_S512x64_S512x64_0_0_1_1_n_n none a h (constant (F := Ideal) S512x64 .f32 0x00000000#32) (ix2 d k)
      = ((∑ s : Fin 512, A s d * H s k : ℝ) : EReal) := by
  refine (mm_tA a h d k).trans ?_
  refine (Finset.sum_congr rfl fun s _ => ?_).trans (sum_coe_mul (fun s => A s d) (fun s => H s k))
  rw [ha, hh]

/-- The leading part and the remainder of t, each times W, added: on real entries the remainder is zero. -/
theorem agg_apply (t : FVec Ideal S512x64 .f32) (w : FVec Ideal S64x64 .bf16) (T : Mat 512 64) (W : Mat 64 64)
    (ht : ∀ d k, t (ix2 d k) = ((T d k : ℝ) : EReal)) (hw : ∀ k o, w (ix2 k o) = ((W k o : ℝ) : EReal))
    (hlt : FTy.bits .bf16 < FTy.bits .f32) (d : Fin 512) (o : Fin 64) :
    addf (matmul dot_S512x64_S64x64_S512x64_1_0_0_1_n_n none (truncf .bf16 t hlt) w (constant (F := Ideal) S512x64 .f32 0x00000000#32))
        (matmul dot_S512x64_S64x64_S512x64_1_0_0_1_n_n none (truncf .bf16 (subf t t) hlt) w (constant (F := Ideal) S512x64 .f32 0x00000000#32))
        (ix2 d o)
      = ((∑ k : Fin 64, T d k * W k o : ℝ) : EReal) := by
  rw [addf_apply, mm_W, mm_W]
  have e1 : (∑ k : Fin 64, (truncf .bf16 t hlt : FVec Ideal S512x64 .bf16) (ix2 d k) * w (ix2 k o))
      = ((∑ k : Fin 64, T d k * W k o : ℝ) : EReal) :=
    (Finset.sum_congr rfl fun k _ => by rw [truncf_apply, ht, hw]).trans (sum_coe_mul (fun k => T d k) (fun k => W k o))
  have e2 : (∑ k : Fin 64, (truncf .bf16 (subf t t) hlt : FVec Ideal S512x64 .bf16) (ix2 d k) * w (ix2 k o)) = 0 :=
    Finset.sum_eq_zero fun k _ => by
      rw [truncf_apply, subf_apply, ht, ← EReal.coe_sub, sub_self, EReal.coe_zero, zero_mul]
  rw [e1, e2, add_zero]

/-- The aggregate of a layer from the edge weights, the state and the layer matrix. -/
theorem aggv_apply (a : FVec Ideal S512x512 .bf16) (h : FVec Ideal S512x64 .bf16) (w : FVec Ideal S64x64 .bf16)
    (A : Mat 512 512) (H : Mat 512 64) (W : Mat 64 64)
    (ha : ∀ s d, a (ix2 s d) = ((A s d : ℝ) : EReal)) (hh : ∀ d k, h (ix2 d k) = ((H d k : ℝ) : EReal))
    (hw : ∀ k o, w (ix2 k o) = ((W k o : ℝ) : EReal)) (hlt : FTy.bits .bf16 < FTy.bits .f32) (d : Fin 512) (o : Fin 64) :
    addf (matmul dot_S512x64_S64x64_S512x64_1_0_0_1_n_n none
          (truncf .bf16 (matmul dot_S512x512_S512x64_S512x64_0_0_1_1_n_n none a h (constant (F := Ideal) S512x64 .f32 0x00000000#32)) hlt)
          w (constant (F := Ideal) S512x64 .f32 0x00000000#32))
        (matmul dot_S512x64_S64x64_S512x64_1_0_0_1_n_n none
          (truncf .bf16 (subf (matmul dot_S512x512_S512x64_S512x64_0_0_1_1_n_n none a h (constant (F := Ideal) S512x64 .f32 0x00000000#32))
            (matmul dot_S512x512_S512x64_S512x64_0_0_1_1_n_n none a h (constant (F := Ideal) S512x64 .f32 0x00000000#32))) hlt)
          w (constant (F := Ideal) S512x64 .f32 0x00000000#32))
        (ix2 d o)
      = ((aggR A H W d o : ℝ) : EReal) :=
  (agg_apply _ w (fun d k => ∑ s : Fin 512, A s d * H s k) W (fun d k => t_apply a h A H ha hh d k) hw hlt d o).trans
    (congrArg (fun x : ℝ => (x : EReal)) (agg_law A H W d o))

/-- A gate pre-activation: g · wᵀ plus the bias row. -/
theorem lin_apply (g : FVec Ideal S512x64 .f32) (wm : FVec Ideal S192x64 .bf16) (bv : FVec Ideal S1x192 .f32)
    (G : Mat 512 64) (Wm : Mat 192 64) (B : Fin 192 → ℝ)
    (hg : ∀ d k, g (ix2 d k) = ((G d k : ℝ) : EReal)) (hwm : ∀ j k, wm (ix2 j k) = ((Wm j k : ℝ) : EReal))
    (hb : ∀ j, bv (ix2 (0 : Fin 1) j) = ((B j : ℝ) : EReal))
    (hlt : FTy.bits .bf16 < FTy.bits .f32) (hbc : S1x192.Broadcasts S512x192) (d : Fin 512) (j : Fin 192) :
    addf (matmul dot_S512x64_S192x64_S512x192_1_1_0_0_n_n none (truncf .bf16 g hlt) wm (constant (F := Ideal) S512x192 .f32 0x00000000#32))
        (broadcastTo S512x192 bv hbc) (ix2 d j)
      = ((linR G Wm B d j : ℝ) : EReal) := by
  rw [addf_apply, mm_T, broadcastTo_1b_ab_apply, hb]
  show _ = (((∑ k : Fin 64, G d k * Wm j k) + B j : ℝ) : EReal)
  rw [EReal.coe_add]
  congr 1
  refine (Finset.sum_congr rfl fun k _ => ?_).trans (sum_coe_mul (fun k => G d k) (fun k => Wm j k))
  rw [truncf_apply, hg, hwm]

/-- A bias row through its two shape casts. -/
theorem bias_apply (P : Vec Ideal S1x192 .f32) (h1 : S1x192.ShapeCasts S192) (h2 : S192.ShapeCasts S1x192) (j : Fin 192) :
    shapeCast S1x192 (shapeCast S192 P h1) h2 (ix2 (0 : Fin 1) j) = P (ix2 (0 : Fin 1) j) := by
  rw [shapeCast_a_1a_apply, shapeCast_1a_a_apply]

/-- The edge weights as numbers: the integer read signed. -/
theorem adj_apply (P1 : Vec Ideal S1x512x512 .i32) (h : S1x512x512.ShapeCasts S512x512) (s d : Fin 512) :
    (sitofp .bf16 (shapeCast S512x512 P1 h) : FVec Ideal S512x512 .bf16) (ix2 s d)
      = (((P1 (ix3 (0 : Fin 1) s d)).toInt : ℝ) : EReal) := by
  rw [sitofp_apply, shapeCast_1ab_ab_apply]
  rfl

/-! ## The gated update -/

/-- The gated update at one entry, from the six gate entries and the old state, all real numbers. -/
theorem gru_scalar (GI GH : Mat 512 192) (H : Mat 512 64) (d : Fin 512) (o : Fin 64)
    (one G1 H1 G2 G0 H0 H2 G1' H1' S : Ideal .f32)
    (hone : one = ((1 : ℝ) : EReal))
    (e1 : G1 = ((GI d (c1 o) : ℝ) : EReal)) (f1 : H1 = ((GH d (c1 o) : ℝ) : EReal))
    (e2 : G2 = ((GI d (c2 o) : ℝ) : EReal))
    (e0 : G0 = ((GI d (c0 o) : ℝ) : EReal)) (f0 : H0 = ((GH d (c0 o) : ℝ) : EReal))
    (f2 : H2 = ((GH d (c2 o) : ℝ) : EReal))
    (e1' : G1' = ((GI d (c1 o) : ℝ) : EReal)) (f1' : H1' = ((GH d (c1 o) : ℝ) : EReal))
    (es : S = ((H d o : ℝ) : EReal)) :
    FloatOps.addf
        (FloatOps.mulf (FloatOps.subf one (FloatOps.logistic (FloatOps.addf G1 H1)))
          (FloatOps.tanh (FloatOps.addf G2 (FloatOps.mulf (FloatOps.logistic (FloatOps.addf G0 H0)) H2))))
        (FloatOps.mulf (FloatOps.logistic (FloatOps.addf G1' H1')) S)
      = ((gruR GI GH H d o : ℝ) : EReal) := by
  subst hone e1 f1 e2 e0 f0 f2 e1' f1' es
  unfold gruR
  simp only [Ideal.addf_def, Ideal.mulf_def, Ideal.subf_def, Ideal.logistic_def, Ideal.tanh_def,
    ← EReal.coe_add, ← EReal.coe_mul, ← EReal.coe_sub, GGNN.logistic_coe, Ideal.tanh_coe]

/-- The gated update as the body computes it, from the gate pre-activations (the input side already cut in thirds). -/
theorem gruVec_apply (v1 : FVec Ideal S512x64 .f32) (v33 : FVec Ideal S512x192 .f32) (v34 v35 v36 : FVec Ideal S512x64 .f32)
    (GI GH : Mat 512 192) (H : Mat 512 64)
    (h1 : ∀ d o, v1 (ix2 d o) = ((H d o : ℝ) : EReal)) (h33 : ∀ d j, v33 (ix2 d j) = ((GH d j : ℝ) : EReal))
    (h34 : ∀ d o, v34 (ix2 d o) = ((GI d (c0 o) : ℝ) : EReal)) (h35 : ∀ d o, v35 (ix2 d o) = ((GI d (c1 o) : ℝ) : EReal))
    (h36 : ∀ d o, v36 (ix2 d o) = ((GI d (c2 o) : ℝ) : EReal)) (d : Fin 512) (o : Fin 64) :
    k0_pay14 v1 v33 v34 v35 v36 (ix2 d o) = ((gruR GI GH H d o : ℝ) : EReal) := by
  unfold k0_pay14
  refine gru_scalar GI GH H d o _ _ _ _ _ _ _ _ _ _ GGNN.ofBits_one_f32 (h35 d o) ?_ (h36 d o) (h34 d o) ?_ ?_ (h35 d o) ?_ (h1 d o)
  · exact (slice2_axis1_apply 64 v33 _ d o (c1 o) (by show o.val + 64 = 64 + o.val; omega)).trans (h33 d (c1 o))
  · exact (slice2_axis1_apply 0 v33 _ d o (c0 o) (by show o.val = 0 + o.val; omega)).trans (h33 d (c0 o))
  · exact (slice2_axis1_apply 128 v33 _ d o (c2 o) (by show o.val + 128 = 128 + o.val; omega)).trans (h33 d (c2 o))
  · exact (slice2_axis1_apply 64 v33 _ d o (c1 o) (by show o.val + 64 = 64 + o.val; omega)).trans (h33 d (c1 o))

/-! ## Where the block index (0, d, o) reads each value: row d, and column o of a third of the gate columns -/

theorem i0 (d : Fin 512) (o : Fin 64) : Value.ix7_0 (ix3 (0 : Fin 1) d o) = ix2 d o := by
  funext a; match a with | ⟨0, _⟩ => rfl | ⟨1, _⟩ => rfl
theorem i1 (d : Fin 512) (o : Fin 64) : Value.ix7_1 (ix3 (0 : Fin 1) d o) = ix2 d (c1 o) := by
  funext a; match a with | ⟨0, _⟩ => rfl | ⟨1, _⟩ => rfl
theorem i2 (d : Fin 512) (o : Fin 64) : Value.ix7_2 (ix3 (0 : Fin 1) d o) = ix2 d (c1 o) := by
  funext a; match a with | ⟨0, _⟩ => rfl | ⟨1, _⟩ => rfl
theorem i3 (d : Fin 512) (o : Fin 64) : Value.ix7_3 (ix3 (0 : Fin 1) d o) = ix2 d (c2 o) := by
  funext a; match a with | ⟨0, _⟩ => rfl | ⟨1, _⟩ => rfl
theorem i4 (d : Fin 512) (o : Fin 64) : Value.ix7_4 (ix3 (0 : Fin 1) d o) = ix2 d (c0 o) := by
  funext a; match a with | ⟨0, _⟩ => rfl | ⟨1, _⟩ => rfl
theorem i5 (d : Fin 512) (o : Fin 64) : Value.ix7_5 (ix3 (0 : Fin 1) d o) = ix2 d (c0 o) := by
  funext a; match a with | ⟨0, _⟩ => rfl | ⟨1, _⟩ => rfl
theorem i6 (d : Fin 512) (o : Fin 64) : Value.ix7_6 (ix3 (0 : Fin 1) d o) = ix2 d (c2 o) := by
  funext a; match a with | ⟨0, _⟩ => rfl | ⟨1, _⟩ => rfl
theorem i7 (d : Fin 512) (o : Fin 64) : Value.ix7_7 (ix3 (0 : Fin 1) d o) = ix2 d (c1 o) := by
  funext a; match a with | ⟨0, _⟩ => rfl | ⟨1, _⟩ => rfl
theorem i8 (d : Fin 512) (o : Fin 64) : Value.ix7_8 (ix3 (0 : Fin 1) d o) = ix2 d (c1 o) := by
  funext a; match a with | ⟨0, _⟩ => rfl | ⟨1, _⟩ => rfl
theorem i9 (d : Fin 512) (o : Fin 64) : Value.ix7_9 (ix3 (0 : Fin 1) d o) = ix2 d (c1 o) := by
  funext a; match a with | ⟨0, _⟩ => rfl | ⟨1, _⟩ => rfl
theorem i10 (d : Fin 512) (o : Fin 64) : Value.ix7_10 (ix3 (0 : Fin 1) d o) = ix2 d (c1 o) := by
  funext a; match a with | ⟨0, _⟩ => rfl | ⟨1, _⟩ => rfl
theorem i11 (d : Fin 512) (o : Fin 64) : Value.ix7_11 (ix3 (0 : Fin 1) d o) = ix2 d (c2 o) := by
  funext a; match a with | ⟨0, _⟩ => rfl | ⟨1, _⟩ => rfl
theorem i12 (d : Fin 512) (o : Fin 64) : Value.ix7_12 (ix3 (0 : Fin 1) d o) = ix2 d (c0 o) := by
  funext a; match a with | ⟨0, _⟩ => rfl | ⟨1, _⟩ => rfl
theorem i13 (d : Fin 512) (o : Fin 64) : Value.ix7_13 (ix3 (0 : Fin 1) d o) = ix2 d (c0 o) := by
  funext a; match a with | ⟨0, _⟩ => rfl | ⟨1, _⟩ => rfl
theorem i14 (d : Fin 512) (o : Fin 64) : Value.ix7_14 (ix3 (0 : Fin 1) d o) = ix2 d (c2 o) := by
  funext a; match a with | ⟨0, _⟩ => rfl | ⟨1, _⟩ => rfl
theorem i15 (d : Fin 512) (o : Fin 64) : Value.ix7_15 (ix3 (0 : Fin 1) d o) = ix2 d (c1 o) := by
  funext a; match a with | ⟨0, _⟩ => rfl | ⟨1, _⟩ => rfl
theorem i16 (d : Fin 512) (o : Fin 64) : Value.ix7_16 (ix3 (0 : Fin 1) d o) = ix2 d (c1 o) := by
  funext a; match a with | ⟨0, _⟩ => rfl | ⟨1, _⟩ => rfl
theorem i17 (d : Fin 512) (o : Fin 64) : Value.ix7_17 (ix3 (0 : Fin 1) d o) = ix3 (0 : Fin 1) d o := by
  funext a; match a with | ⟨0, _⟩ => rfl | ⟨1, _⟩ => rfl | ⟨2, _⟩ => rfl

/-! ## The two layers of the body, from graph b's arrays -/

section Body
variable (I : GGNN.Inputs) (b : Fin 8)
  (P0 : Vec Ideal S1x512x64 .f32) (P1 : Vec Ideal S1x512x512 .i32) (P2 : Vec Ideal S1x192 .f32) (P3 : Vec Ideal S192x64 .f32)
  (P4 : Vec Ideal S1x192 .f32) (P5 : Vec Ideal S192x64 .f32) (P6 P7 : Vec Ideal S1x64x64 .f32)
  (h0 : ∀ (d : Fin 512) (k : Fin 64), P0 (ix3 (0 : Fin 1) d k) = ((I.x (ix3 b d k) : ℝ) : EReal))
  (h1 : ∀ (s d : Fin 512), P1 (ix3 (0 : Fin 1) s d) = I.adj (ix3 b s d))
  (h2 : ∀ j : Fin 192, P2 (ix2 (0 : Fin 1) j) = ((I.bih (ix1 j) : ℝ) : EReal))
  (h3 : ∀ (j : Fin 192) (k : Fin 64), P3 (ix2 j k) = ((I.wih (ix2 j k) : ℝ) : EReal))
  (h4 : ∀ j : Fin 192, P4 (ix2 (0 : Fin 1) j) = ((I.bhh (ix1 j) : ℝ) : EReal))
  (h5 : ∀ (j : Fin 192) (k : Fin 64), P5 (ix2 j k) = ((I.whh (ix2 j k) : ℝ) : EReal))
  (h6 : ∀ (k o : Fin 64), P6 (ix3 (0 : Fin 1) k o) = ((I.w (ix3 (0 : Fin 2) k o) : ℝ) : EReal))
  (h7 : ∀ (k o : Fin 64), P7 (ix3 (0 : Fin 1) k o) = ((I.w (ix3 (1 : Fin 2) k o) : ℝ) : EReal))

include h1 in
/-- The edge block as numbers is graph b's edge weights. -/
theorem adjA (h : S1x512x512.ShapeCasts S512x512) (s d : Fin 512) :
    (sitofp .bf16 (shapeCast S512x512 P1 h) : FVec Ideal S512x512 .bf16) (ix2 s d) = ((I.A b s d : ℝ) : EReal) := by
  rw [adj_apply, h1]
  rfl

include h0 in
/-- The state block without its unit axis is graph b's node states. -/
theorem stX (h : S1x512x64.ShapeCasts S512x64) (d : Fin 512) (k : Fin 64) :
    shapeCast S512x64 P0 h (ix2 d k) = ((I.X b d k : ℝ) : EReal) := by
  rw [shapeCast_1ab_ab_apply, h0]
  rfl

include h0 h1 h2 h3 h6 in
/-- The first layer's input-side gate pre-activations. -/
theorem pay9_apply (d : Fin 512) (j : Fin 192) :
    k0_pay9 P0 P1 P2 P3 P6 (ix2 d j) = ((linR (aggR (I.A b) (I.X b) (I.W 0)) I.Wih I.Bih d j : ℝ) : EReal) := by
  unfold k0_pay9 k0_pay3 k0_pay8 k0_pay2 k0_pay6 k0_pay4
  refine lin_apply _ _ _ (aggR (I.A b) (I.X b) (I.W 0)) I.Wih I.Bih ?_ ?_ ?_ _ _ d j
  · intro d k
    refine aggv_apply _ _ _ (I.A b) (I.X b) (I.W 0) (adjA I b P1 h1 _) ?_ ?_ _ d k
    · intro d k; rw [truncf_apply]; exact stX I b P0 h0 _ d k
    · intro k o; rw [truncf_apply, shapeCast_1ab_ab_apply, h6]; rfl
  · intro j k; rw [truncf_apply, h3]; rfl
  · intro j; rw [bias_apply, h2]; rfl

include h0 h4 h5 in
/-- The first layer's state-side gate pre-activations. -/
theorem pay10_apply (d : Fin 512) (j : Fin 192) :
    k0_pay10 P0 P4 P5 (ix2 d j) = ((linR (I.X b) I.Whh I.Bhh d j : ℝ) : EReal) := by
  unfold k0_pay10 k0_pay8 k0_pay2 k0_pay7 k0_pay5
  refine lin_apply _ _ _ (I.X b) I.Whh I.Bhh (stX I b P0 h0 _) ?_ ?_ _ _ d j
  · intro j k; rw [truncf_apply, h5]; rfl
  · intro j; rw [bias_apply, h4]; rfl

include h0 h1 h2 h3 h4 h5 h6 in
/-- The state after the first layer. -/
theorem state1_apply (hc : S1x512x64.ShapeCasts S512x64) (s0 : S512x192.Slices ![0, 0] S512x64)
    (s64 : S512x192.Slices ![0, 64] S512x64) (s128 : S512x192.Slices ![0, 128] S512x64) (d : Fin 512) (k : Fin 64) :
    k0_pay14 (shapeCast S512x64 P0 hc) (k0_pay10 P0 P4 P5)
        (extractStridedSlice S512x64 ![0, 0] (k0_pay9 P0 P1 P2 P3 P6) s0)
        (extractStridedSlice S512x64 ![0, 64] (k0_pay9 P0 P1 P2 P3 P6) s64)
        (extractStridedSlice S512x64 ![0, 128] (k0_pay9 P0 P1 P2 P3 P6) s128) (ix2 d k)
      = ((I.H1 b d k : ℝ) : EReal) := by
  refine gruVec_apply _ _ _ _ _ (linR (aggR (I.A b) (I.X b) (I.W 0)) I.Wih I.Bih) (linR (I.X b) I.Whh I.Bhh) (I.X b)
    (stX I b P0 h0 _) (pay10_apply I b P0 P4 P5 h0 h4 h5) ?_ ?_ ?_ d k
  · intro d o
    exact (slice2_axis1_apply 0 _ _ d o (c0 o) (by show o.val = 0 + o.val; omega)).trans
      (pay9_apply I b P0 P1 P2 P3 P6 h0 h1 h2 h3 h6 d (c0 o))
  · intro d o
    exact (slice2_axis1_apply 64 _ _ d o (c1 o) (by show o.val + 64 = 64 + o.val; omega)).trans
      (pay9_apply I b P0 P1 P2 P3 P6 h0 h1 h2 h3 h6 d (c1 o))
  · intro d o
    exact (slice2_axis1_apply 128 _ _ d o (c2 o) (by show o.val + 128 = 128 + o.val; omega)).trans
      (pay9_apply I b P0 P1 P2 P3 P6 h0 h1 h2 h3 h6 d (c2 o))

include h0 h1 h2 h3 h4 h5 h6 h7 in
/-- The second layer's input-side gate pre-activations, from the state after the first layer. -/
theorem pay16_apply (hc : S1x512x64.ShapeCasts S512x64) (hc1 : S1x512x512.ShapeCasts S512x512) (hc2 : S1x192.ShapeCasts S192)
    (hlt : FTy.bits .bf16 < FTy.bits .f32) (s0 : S512x192.Slices ![0, 0] S512x64)
    (s64 : S512x192.Slices ![0, 64] S512x64) (s128 : S512x192.Slices ![0, 128] S512x64) (d : Fin 512) (j : Fin 192) :
    k0_pay16 (shapeCast S512x64 P0 hc) (sitofp .bf16 (shapeCast S512x512 P1 hc1)) (shapeCast S192 P2 hc2) (truncf .bf16 P3 hlt)
        (k0_pay10 P0 P4 P5)
        (extractStridedSlice S512x64 ![0, 0] (k0_pay9 P0 P1 P2 P3 P6) s0)
        (extractStridedSlice S512x64 ![0, 64] (k0_pay9 P0 P1 P2 P3 P6) s64)
        (extractStridedSlice S512x64 ![0, 128] (k0_pay9 P0 P1 P2 P3 P6) s128) P7 (ix2 d j)
      = ((linR (aggR (I.A b) (I.H1 b) (I.W 1)) I.Wih I.Bih d j : ℝ) : EReal) := by
  unfold k0_pay16 k0_pay15
  refine lin_apply _ _ _ (aggR (I.A b) (I.H1 b) (I.W 1)) I.Wih I.Bih ?_ ?_ ?_ _ _ d j
  · intro d k
    refine aggv_apply _ _ _ (I.A b) (I.H1 b) (I.W 1) (adjA I b P1 h1 _) ?_ ?_ _ d k
    · intro d k; rw [truncf_apply]; exact state1_apply I b P0 P1 P2 P3 P4 P5 P6 h0 h1 h2 h3 h4 h5 h6 _ _ _ _ d k
    · intro k o; rw [truncf_apply, shapeCast_1ab_ab_apply, h7]; rfl
  · intro j k; rw [truncf_apply, h3]; rfl
  · intro j; rw [bias_apply, h2]; rfl

include h0 h1 h2 h3 h4 h5 h6 in
/-- The second layer's state-side gate pre-activations. -/
theorem pay17_apply (hc : S1x512x64.ShapeCasts S512x64) (hc2 : S1x192.ShapeCasts S192)
    (hlt : FTy.bits .bf16 < FTy.bits .f32) (s0 : S512x192.Slices ![0, 0] S512x64)
    (s64 : S512x192.Slices ![0, 64] S512x64) (s128 : S512x192.Slices ![0, 128] S512x64) (d : Fin 512) (j : Fin 192) :
    k0_pay17 (shapeCast S512x64 P0 hc) (shapeCast S192 P4 hc2) (truncf .bf16 P5 hlt) (k0_pay10 P0 P4 P5)
        (extractStridedSlice S512x64 ![0, 0] (k0_pay9 P0 P1 P2 P3 P6) s0)
        (extractStridedSlice S512x64 ![0, 64] (k0_pay9 P0 P1 P2 P3 P6) s64)
        (extractStridedSlice S512x64 ![0, 128] (k0_pay9 P0 P1 P2 P3 P6) s128) (ix2 d j)
      = ((linR (I.H1 b) I.Whh I.Bhh d j : ℝ) : EReal) := by
  unfold k0_pay17 k0_pay15
  refine lin_apply _ _ _ (I.H1 b) I.Whh I.Bhh (state1_apply I b P0 P1 P2 P3 P4 P5 P6 h0 h1 h2 h3 h4 h5 h6 _ _ _ _) ?_ ?_ _ _ d j
  · intro j k; rw [truncf_apply, h5]; rfl
  · intro j; rw [bias_apply, h4]; rfl

end Body

/-- The block the body leaves, at (0, d, o), when its loads are graph b's arrays of real numbers: the state of node d,
    feature o, after two layers. -/
theorem block_apply (I : GGNN.Inputs) (b : Fin 8)
    (P0 : Vec Ideal S1x512x64 .f32) (P1 : Vec Ideal S1x512x512 .i32) (P2 : Vec Ideal S1x192 .f32) (P3 : Vec Ideal S192x64 .f32)
    (P4 : Vec Ideal S1x192 .f32) (P5 : Vec Ideal S192x64 .f32) (P6 P7 : Vec Ideal S1x64x64 .f32)
    (h0 : ∀ (d : Fin 512) (k : Fin 64), P0 (ix3 (0 : Fin 1) d k) = ((I.x (ix3 b d k) : ℝ) : EReal))
    (h1 : ∀ (s d : Fin 512), P1 (ix3 (0 : Fin 1) s d) = I.adj (ix3 b s d))
    (h2 : ∀ j : Fin 192, P2 (ix2 (0 : Fin 1) j) = ((I.bih (ix1 j) : ℝ) : EReal))
    (h3 : ∀ (j : Fin 192) (k : Fin 64), P3 (ix2 j k) = ((I.wih (ix2 j k) : ℝ) : EReal))
    (h4 : ∀ j : Fin 192, P4 (ix2 (0 : Fin 1) j) = ((I.bhh (ix1 j) : ℝ) : EReal))
    (h5 : ∀ (j : Fin 192) (k : Fin 64), P5 (ix2 j k) = ((I.whh (ix2 j k) : ℝ) : EReal))
    (h6 : ∀ (k o : Fin 64), P6 (ix3 (0 : Fin 1) k o) = ((I.w (ix3 (0 : Fin 2) k o) : ℝ) : EReal))
    (h7 : ∀ (k o : Fin 64), P7 (ix3 (0 : Fin 1) k o) = ((I.w (ix3 (1 : Fin 2) k o) : ℝ) : EReal))
    (d : Fin 512) (o : Fin 64) :
    Cert.KernelIdeal.Value.E7 (F := Ideal) P0 P1 P2 P3 P4 P5 P6 P7 (ix3 (0 : Fin 1) d o) = ((I.H2 b d o : ℝ) : EReal) := by
  have e9 := pay9_apply I b P0 P1 P2 P3 P6 h0 h1 h2 h3 h6
  have e10 := pay10_apply I b P0 P4 P5 h0 h4 h5
  have e16 := pay16_apply I b P0 P1 P2 P3 P4 P5 P6 P7 h0 h1 h2 h3 h4 h5 h6 h7
  have e17 := pay17_apply I b P0 P1 P2 P3 P4 P5 P6 h0 h1 h2 h3 h4 h5 h6
  refine gru_scalar (linR (aggR (I.A b) (I.H1 b) (I.W 1)) I.Wih I.Bih) (linR (I.H1 b) I.Whh I.Bhh) (I.H1 b) d o
    _ _ _ _ _ _ _ _ _ _ GGNN.ofBits_one_f32 ?_ ?_ ?_ ?_ ?_ ?_ ?_ ?_ ?_
  · rw [i1]; exact e16 _ _ _ _ _ _ _ d (c1 o)
  · rw [i2]; exact e17 _ _ _ _ _ _ d (c1 o)
  · rw [i3]; exact e16 _ _ _ _ _ _ _ d (c2 o)
  · rw [i4]; exact e16 _ _ _ _ _ _ _ d (c0 o)
  · rw [i5]; exact e17 _ _ _ _ _ _ d (c0 o)
  · rw [i6]; exact e17 _ _ _ _ _ _ d (c2 o)
  · rw [i7]; exact e16 _ _ _ _ _ _ _ d (c1 o)
  · rw [i8]; exact e17 _ _ _ _ _ _ d (c1 o)
  · refine gru_scalar (linR (aggR (I.A b) (I.X b) (I.W 0)) I.Wih I.Bih) (linR (I.X b) I.Whh I.Bhh) (I.X b) d o
      _ _ _ _ _ _ _ _ _ _ GGNN.ofBits_one_f32 ?_ ?_ ?_ ?_ ?_ ?_ ?_ ?_ ?_
    · rw [i9]; exact e9 d (c1 o)
    · rw [i10]; exact e10 d (c1 o)
    · rw [i11]; exact e9 d (c2 o)
    · rw [i12]; exact e9 d (c0 o)
    · rw [i13]; exact e10 d (c0 o)
    · rw [i14]; exact e10 d (c2 o)
    · rw [i15]; exact e9 d (c1 o)
    · rw [i16]; exact e10 d (c1 o)
    · rw [i17]; exact h0 d o

end Cert.KernelIdeal.KerValue

end
-- ==== Proof.KerArray.lean ====
/-
  From blocks to the array: the kernel's result array after the run is the specification's result, graph by graph —
  grid point b writes rows of graph b, and the eight blocks tile the array.

  Grid point t reads graph t's node states and edge weights (block (t, 0, 0) of the two batched arguments), the whole of
  the layer matrices and gate weights (block (0, …)), and the two gate biases as rows [1, 192] (the host reshapes the
  192-vectors before the call); it writes block (t, 0, 0) of the result. So what it writes is graph t's states after two
  layers, and every index (g, d, o) of the result lies in the block of point g.
-/
import proofs.«104106_g32573031973289_fold_wed_c4_852_6_alg».proof.Proof.Gen.KernelIdeal.Value
import proofs.«104106_g32573031973289_fold_wed_c4_852_6_alg».proof.Proof.Spec
import proofs.«104106_g32573031973289_fold_wed_c4_852_6_alg».proof.Proof.KerValue
import Idealize.ShloMosaic.Lib.Pipeline.Value

noncomputable section

namespace Cert.KernelIdeal.KerArray

open Cert.KernelIdeal Cert.KernelIdeal.Gen Idealize.ShloMosaic Idealize.ShloMosaic.TcCoe Idealize.SL.Sem Idealize.ShloMosaic.ValueIdx GGNN
open Idealize.ShloMosaic.Pipeline (Dat)

variable (m : (ℓ : Loc nD τ sig) → Buf (Elt Ideal) ℓ)

/-! ## The grid: which block each window is on at point t -/

/-- The zero offsets of a whole rank-3 buffer, and of a whole rank-2 buffer. -/
theorem off3_zero : (![0, 0, 0] : Fin 3 → Nat) = fun _ => 0 := funext fun a => by fin_cases a <;> rfl
theorem off2_zero : (![0, 0] : Fin 2 → Nat) = fun _ => 0 := funext fun a => by fin_cases a <;> rfl

/-- Grid point t works on graph t. -/
abbrev graph (t : Fin cfg0.N) : Fin 8 := Fin.cast (show cfg0.N = 8 from N_0) t

/-- The node states' block at point t is block (t, 0, 0). -/
theorem index_x : ∀ t : Fin cfg0.N, win0_0.index t (0 : Fin 3) = t.val ∧ win0_0.index t (1 : Fin 3) = 0 ∧ win0_0.index t (2 : Fin 3) = 0 :=
  (by decide +kernel : ∀ t : Fin grid0.N, _)
/-- The edge weights' block at point t is block (t, 0, 0). -/
theorem index_adj : ∀ t : Fin cfg0.N, win0_1.index t (0 : Fin 3) = t.val ∧ win0_1.index t (1 : Fin 3) = 0 ∧ win0_1.index t (2 : Fin 3) = 0 :=
  (by decide +kernel : ∀ t : Fin grid0.N, _)
/-- The layer matrices are read whole at every point. -/
theorem index_w : ∀ t : Fin cfg0.N, win0_2.index t (0 : Fin 3) = 0 ∧ win0_2.index t (1 : Fin 3) = 0 ∧ win0_2.index t (2 : Fin 3) = 0 :=
  (by decide +kernel : ∀ t : Fin grid0.N, _)
/-- The input gate weights are read whole at every point. -/
theorem index_wih : ∀ t : Fin cfg0.N, win0_3.index t (0 : Fin 2) = 0 ∧ win0_3.index t (1 : Fin 2) = 0 :=
  (by decide +kernel : ∀ t : Fin grid0.N, _)
/-- The state gate weights are read whole at every point. -/
theorem index_whh : ∀ t : Fin cfg0.N, win0_4.index t (0 : Fin 2) = 0 ∧ win0_4.index t (1 : Fin 2) = 0 :=
  (by decide +kernel : ∀ t : Fin grid0.N, _)
/-- The input gate bias row is read whole at every point. -/
theorem index_bih : ∀ t : Fin cfg0.N, win0_5.index t (0 : Fin 2) = 0 ∧ win0_5.index t (1 : Fin 2) = 0 :=
  (by decide +kernel : ∀ t : Fin grid0.N, _)
/-- The state gate bias row is read whole at every point. -/
theorem index_bhh : ∀ t : Fin cfg0.N, win0_6.index t (0 : Fin 2) = 0 ∧ win0_6.index t (1 : Fin 2) = 0 :=
  (by decide +kernel : ∀ t : Fin grid0.N, _)
/-- The result's block at point t is block (t, 0, 0). -/
theorem index_out : ∀ t : Fin cfg0.N, win0_7.index t (0 : Fin 3) = t.val ∧ win0_7.index t (1 : Fin 3) = 0 ∧ win0_7.index t (2 : Fin 3) = 0 :=
  (by decide +kernel : ∀ t : Fin grid0.N, _)

/-! ## The blocks a point reads, entry by entry

An entry of a block sits in its array at block index × block size + the entry's coordinate in the block. -/

/-- Entry (0, d, k) of the node states' block at point t is entry (t, d, k) of the argument. -/
theorem x_block (c : Dev nD) (t : Fin cfg0.N) (d : Fin 512) (k : Fin 64) :
    (iblk m c 0 t : Vec Ideal S1x512x64 .f32) (ix3 (0 : Fin 1) d k)
      = (m ((c : Thread nD τ).loc main_arg0) : S8x512x64.Idx → EReal) (ix3 (graph t) d k) := by
  obtain ⟨e0, e1, e2⟩ := index_x t
  unfold iblk
  rw [View.read_apply]
  show V m c main_arg0 _ = _
  refine (congrFun (V_main_arg0 m c) _).trans ?_
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * d.val = d.val; omega
  | ⟨2, _⟩ => show win0_0.index t (2 : Fin 3) * 64 + 1 * k.val = k.val; omega

/-- Entry (0, s, d) of the edge weights' block at point t is entry (t, s, d) of the argument. -/
theorem adj_block (c : Dev nD) (t : Fin cfg0.N) (s d : Fin 512) :
    (iblk m c 1 t : Vec Ideal S1x512x512 .i32) (ix3 (0 : Fin 1) s d)
      = (m ((c : Thread nD τ).loc main_arg1) : S8x512x512.Idx → BitVec 32) (ix3 (graph t) s d) := by
  obtain ⟨e0, e1, e2⟩ := index_adj t
  unfold iblk
  rw [View.read_apply]
  show V m c main_arg1 _ = _
  refine (congrFun (V_main_arg1 m c) _).trans ?_
  refine congrArg _ (funext fun a => Fin.ext ?_)
  match a with
  | ⟨0, _⟩ => show win0_1.index t (0 : Fin 3) * 1 + 1 * 0 = t.val; omega
  | ⟨1, _⟩ => show win0_1.index t (1 : Fin 3) * 512 + 1 * s.val = s.val; omega
  | ⟨2, _⟩ => show win0_1.index t (2 : Fin 3) * 512 + 1 * d.val = d.val; omega

/-- The layer matrices' block at any point is the argument. -/
theorem w_block (c : Dev nD) (t : Fin cfg0.N) (l : Fin 2) (k o : Fin 64) :
    (iblk m c 2 t : Vec Ideal S2x64x64 .f32) (ix3 l k o)
      = (m ((c : Thread nD τ).loc main_arg2) : S2x64x64.Idx → EReal) (ix3 l k o) := by
  obtain ⟨e0, e1, e2⟩ := index_w t
  unfold iblk
  rw [View.read_apply]
  show V m c main_arg2 _ = _
  refine (congrFun (V_main_arg2 m c) _).trans ?_
  refine congrArg _ (funext fun a => Fin.ext ?_)
  match a with
  | ⟨0, _⟩ => show win0_2.index t (0 : Fin 3) * 2 + 1 * l.val = l.val; omega
  | ⟨1, _⟩ => show win0_2.index t (1 : Fin 3) * 64 + 1 * k.val = k.val; omega
  | ⟨2, _⟩ => show win0_2.index t (2 : Fin 3) * 64 + 1 * o.val = o.val; omega

/-- The input gate weights' block at any point is the argument. -/
theorem wih_block (c : Dev nD) (t : Fin cfg0.N) (j : Fin 192) (k : Fin 64) :
    (iblk m c 3 t : Vec Ideal S192x64 .f32) (ix2 j k)
      = (m ((c : Thread nD τ).loc main_arg3) : S192x64.Idx → EReal) (ix2 j k) := by
  obtain ⟨e0, e1⟩ := index_wih t
  unfold iblk
  rw [View.read_apply]
  show V m c main_arg3 _ = _
  refine (congrFun (V_main_arg3 m c) _).trans ?_
  refine congrArg _ (funext fun a => Fin.ext ?_)
  match a with
  | ⟨0, _⟩ => show win0_3.index t (0 : Fin 2) * 192 + 1 * j.val = j.val; omega
  | ⟨1, _⟩ => show win0_3.index t (1 : Fin 2) * 64 + 1 * k.val = k.val; omega

/-- The state gate weights' block at any point is the argument. -/
theorem whh_block (c : Dev nD) (t : Fin cfg0.N) (j : Fin 192) (k : Fin 64) :
    (iblk m c 4 t : Vec Ideal S192x64 .f32) (ix2 j k)
      = (m ((c : Thread nD τ).loc main_arg4) : S192x64.Idx → EReal) (ix2 j k) := by
  obtain ⟨e0, e1⟩ := index_whh t
  unfold iblk
  rw [View.read_apply]
  show V m c main_arg4 _ = _
  refine (congrFun (V_main_arg4 m c) _).trans ?_
  refine congrArg _ (funext fun a => Fin.ext ?_)
  match a with
  | ⟨0, _⟩ => show win0_4.index t (0 : Fin 2) * 192 + 1 * j.val = j.val; omega
  | ⟨1, _⟩ => show win0_4.index t (1 : Fin 2) * 64 + 1 * k.val = k.val; omega

/-- The row the call is given for the input gate bias is the 192-vector laid out as [1, 192]. -/
theorem bih_row (c : Dev nD) :
    (V m c main_v0 : S1x192.Idx → EReal)
      = shapeCast S1x192 (m ((c : Thread nD τ).loc main_arg5) : S192.Idx → EReal) Gen.shapeCasts_S192_S1x192 := by
  dsimp only [Gen.V, Gen.hostOps0]; after_results; rfl

/-- The row the call is given for the state gate bias is the 192-vector laid out as [1, 192]. -/
theorem bhh_row (c : Dev nD) :
    (V m c main_v1 : S1x192.Idx → EReal)
      = shapeCast S1x192 (m ((c : Thread nD τ).loc main_arg6) : S192.Idx → EReal) Gen.shapeCasts_S192_S1x192 := by
  dsimp only [Gen.V, Gen.hostOps0]; after_results; rfl

/-- Entry (0, j) of the input gate bias row's block at any point is entry j of the argument. -/
theorem bih_block (c : Dev nD) (t : Fin cfg0.N) (j : Fin 192) :
    (iblk m c 5 t : Vec Ideal S1x192 .f32) (ix2 (0 : Fin 1) j)
      = (m ((c : Thread nD τ).loc main_arg5) : S192.Idx → EReal) (ix1 j) := by
  obtain ⟨e0, e1⟩ := index_bih t
  unfold iblk
  rw [View.read_apply]
  show V m c main_v0 _ = _
  refine (congrFun (bih_row m c) _).trans ?_
  refine shapeCast_apply _ _ _ (ix1 j) ?_
  rw [Shape.rowMajor_val_one, Shape.rowMajor_val_two]
  show j.val = (win0_5.index t (0 : Fin 2) * 1 + 1 * 0) * 192 + (win0_5.index t (1 : Fin 2) * 192 + 1 * j.val)
  omega

/-- Entry (0, j) of the state gate bias row's block at any point is entry j of the argument. -/
theorem bhh_block (c : Dev nD) (t : Fin cfg0.N) (j : Fin 192) :
    (iblk m c 6 t : Vec Ideal S1x192 .f32) (ix2 (0 : Fin 1) j)
      = (m ((c : Thread nD τ).loc main_arg6) : S192.Idx → EReal) (ix1 j) := by
  obtain ⟨e0, e1⟩ := index_bhh t
  unfold iblk
  rw [View.read_apply]
  show V m c main_v1 _ = _
  refine (congrFun (bhh_row m c) _).trans ?_
  refine shapeCast_apply _ _ _ (ix1 j) ?_
  rw [Shape.rowMajor_val_one, Shape.rowMajor_val_two]
  show j.val = (win0_6.index t (0 : Fin 2) * 1 + 1 * 0) * 192 + (win0_6.index t (1 : Fin 2) * 192 + 1 * j.val)
  omega

/-! ## What a point writes -/

/-- From blocks that are graph b's node states and edge weights and the shared weights, the body leaves graph b's states
    after two layers: its loads read the blocks whole, but for the two layer matrices, which are the two halves of one
    block. -/
theorem body_block (I : GGNN.Inputs) (b : Fin 8)
    (x0 : Vec Ideal S1x512x64 .f32) (x1 : Vec Ideal S1x512x512 .i32) (x2 : Vec Ideal S2x64x64 .f32)
    (x3 x4 : Vec Ideal S192x64 .f32) (x5 x6 : Vec Ideal S1x192 .f32)
    (h0 : ∀ (d : Fin 512) (k : Fin 64), x0 (ix3 (0 : Fin 1) d k) = ((I.x (ix3 b d k) : ℝ) : EReal))
    (h1 : ∀ (s d : Fin 512), x1 (ix3 (0 : Fin 1) s d) = I.adj (ix3 b s d))
    (h2 : ∀ (l : Fin 2) (k o : Fin 64), x2 (ix3 l k o) = ((I.w (ix3 l k o) : ℝ) : EReal))
    (h3 : ∀ (j : Fin 192) (k : Fin 64), x3 (ix2 j k) = ((I.wih (ix2 j k) : ℝ) : EReal))
    (h4 : ∀ (j : Fin 192) (k : Fin 64), x4 (ix2 j k) = ((I.whh (ix2 j k) : ℝ) : EReal))
    (h5 : ∀ j : Fin 192, x5 (ix2 (0 : Fin 1) j) = ((I.bih (ix1 j) : ℝ) : EReal))
    (h6 : ∀ j : Fin 192, x6 (ix2 (0 : Fin 1) j) = ((I.bhh (ix1 j) : ℝ) : EReal))
    (d : Fin 512) (o : Fin 64) :
    out0_7 (F := Ideal) x0 x1 x2 x3 x4 x5 x6 (ix3 (0 : Fin 1) d o) = ((I.H2 b d o : ℝ) : EReal) := by
  unfold out0_7
  refine (Value.canon7_eq (F := Ideal) (View.ld x0 r0_0) (View.ld x1 r0_1) (View.ld x5 r0_2) (View.ld x3 r0_3)
    (View.ld x6 r0_2) (View.ld x4 r0_3) (View.ld x2 r0_4) (View.ld x2 r0_5) (ix3 (0 : Fin 1) d o)).trans ?_
  refine KerValue.block_apply I b (View.ld x0 r0_0) (View.ld x1 r0_1) (View.ld x5 r0_2) (View.ld x3 r0_3)
    (View.ld x6 r0_2) (View.ld x4 r0_3) (View.ld x2 r0_4) (View.ld x2 r0_5) ?_ ?_ ?_ ?_ ?_ ?_ ?_ ?_ d o
  · intro d k
    exact (congrFun (View.ld_unit_zero (S := S1x512x64) off3_zero _ x0) _).trans (h0 d k)
  · intro s d
    exact (congrFun (View.ld_unit_zero (S := S1x512x512) off3_zero _ x1) _).trans (h1 s d)
  · intro j
    exact (congrFun (View.ld_unit_zero (S := S1x192) off2_zero _ x5) _).trans (h5 j)
  · intro j k
    exact (congrFun (View.ld_unit_zero (S := S192x64) off2_zero _ x3) _).trans (h3 j k)
  · intro j
    exact (congrFun (View.ld_unit_zero (S := S1x192) off2_zero _ x6) _).trans (h6 j)
  · intro j k
    exact (congrFun (View.ld_unit_zero (S := S192x64) off2_zero _ x4) _).trans (h4 j k)
  · intro k o
    show x2 (r0_4.idx (ix3 (0 : Fin 1) k o)) = _
    have e : r0_4.idx (ix3 (0 : Fin 1) k o) = ix3 (0 : Fin 2) k o := by
      funext a; apply Fin.ext
      match a with
      | ⟨0, _⟩ => rfl
      | ⟨1, _⟩ => show 0 + 1 * k.val = k.val; omega
      | ⟨2, _⟩ => show 0 + 1 * o.val = o.val; omega
    rw [e]; exact h2 0 k o
  · intro k o
    show x2 (r0_5.idx (ix3 (0 : Fin 1) k o)) = _
    have e : r0_5.idx (ix3 (0 : Fin 1) k o) = ix3 (1 : Fin 2) k o := by
      funext a; apply Fin.ext
      match a with
      | ⟨0, _⟩ => rfl
      | ⟨1, _⟩ => show 0 + 1 * k.val = k.val; omega
      | ⟨2, _⟩ => show 0 + 1 * o.val = o.val; omega
    rw [e]; exact h2 1 k o

/-- A block whose entry (0, d, o) is graph t's state of node d, feature o after two layers is block t of the
    specification's result. -/
theorem cut_block (I : GGNN.Inputs) (t : Fin cfg0.N) (X : Vec Ideal S1x512x64 .f32)
    (hX : ∀ (d : Fin 512) (o : Fin 64), X (ix3 (0 : Fin 1) d o) = ((I.H2 (graph t) d o : ℝ) : EReal)) :
    (cfg0.win 7).cut (grid0.coords t) X = ((cfg0.win 7).blk t).view.read (Elt Ideal) (GGNN.result I) := by
  obtain ⟨e0, e1, e2⟩ := index_out t
  funext j
  revert j
  show ∀ j : S1x512x64.Idx, X j = GGNN.result I (((cfg0.win 7).blk t).view.emb j)
  intro j
  obtain ⟨z, d, o, rfl⟩ : ∃ (z : Fin 1) (d : Fin 512) (o : Fin 64), j = ix3 z d o := ⟨j 0, j 1, j 2, eq_ix3 j⟩
  obtain rfl : z = 0 := Subsingleton.elim _ _
  have he : ((cfg0.win 7).blk t).view.emb (ix3 (0 : Fin 1) d o) = (ix3 (graph t) d o : S8x512x64.Idx) := by
    funext a; apply Fin.ext
    match a with
    | ⟨0, _⟩ => show win0_7.index t (0 : Fin 3) * 1 + 1 * 0 = t.val; omega
    | ⟨1, _⟩ => show win0_7.index t (1 : Fin 3) * 512 + 1 * d.val = d.val; omega
    | ⟨2, _⟩ => show win0_7.index t (2 : Fin 3) * 64 + 1 * o.val = o.val; omega
  rw [he, hX d o]
  rfl

/-- WHAT POINT t WRITES BACK is block t of the specification's result. -/
theorem written_block (c : Dev nD) (I : GGNN.Inputs)
    (h0 : m ((c : Thread nD τ).loc main_arg0) = (fun i => ((I.x i : ℝ) : EReal)))
    (h1 : m ((c : Thread nD τ).loc main_arg1) = I.adj)
    (h2 : m ((c : Thread nD τ).loc main_arg2) = (fun i => ((I.w i : ℝ) : EReal)))
    (h3 : m ((c : Thread nD τ).loc main_arg3) = (fun i => ((I.wih i : ℝ) : EReal)))
    (h4 : m ((c : Thread nD τ).loc main_arg4) = (fun i => ((I.whh i : ℝ) : EReal)))
    (h5 : m ((c : Thread nD τ).loc main_arg5) = (fun i => ((I.bih i : ℝ) : EReal)))
    (h6 : m ((c : Thread nD τ).loc main_arg6) = (fun i => ((I.bhh i : ℝ) : EReal)))
    (t : Fin cfg0.N) :
    (dats m 0 c).flushed 7 t = ((cfg0.win 7).blk t).view.read (Elt Ideal) (GGNN.result I) := by
  rw [Value.flushed7 m c t]
  refine cut_block I t _ (fun d o => ?_)
  exact body_block I (graph t) (iblk m c 0 t) (iblk m c 1 t) (iblk m c 2 t) (iblk m c 3 t) (iblk m c 4 t)
    (iblk m c 5 t) (iblk m c 6 t)
    (fun d k => (x_block m c t d k).trans (congrFun h0 _))
    (fun s d => (adj_block m c t s d).trans (congrFun h1 _))
    (fun l k o => (w_block m c t l k o).trans (congrFun h2 _))
    (fun j k => (wih_block m c t j k).trans (congrFun h3 _))
    (fun j k => (whh_block m c t j k).trans (congrFun h4 _))
    (fun j => (bih_block m c t j).trans (congrFun h5 _))
    (fun j => (bhh_block m c t j).trans (congrFun h6 _))
    d o

/-! ## The eight blocks tile the result -/

/-- An index of the result is in point t's block iff each coordinate is in the block's range on its axis. -/
theorem mem_block (t : Fin cfg0.N) (i : S8x512x64.Idx) :
    i ∈ ((cfg0.win 7).blk t).view.set ↔ ∀ a : Fin 3, win0_7.index t a * S1x512x64.size a ≤ (i a).val ∧ (i a).val < win0_7.index t a * S1x512x64.size a + S1x512x64.size a := by
  show i ∈ ((View.whole main_v2).slice (win0_7.rect t)).set ↔ _
  rw [View.set_slice_whole, Rect.mem_set_unit]
  exact Iff.rfl

/-- Index (g, d, o) of the result lies in the block of point g, which writes back. -/
theorem blocks_cover (i : S8x512x64.Idx) :
    ∃ t : Fin cfg0.N, (cfg0.win 7).flush t = true ∧ i ∈ ((cfg0.win 7).blk t).view.set := by
  have hi0 : (i 0).val < 8 := (i 0).isLt
  have hi1 : (i 1).val < 512 := (i 1).isLt
  have hi2 : (i 2).val < 64 := (i 2).isLt
  obtain ⟨t, ht⟩ : ∃ t : Fin cfg0.N, t.val = (i 0).val :=
    ⟨⟨(i 0).val, by rw [show cfg0.N = 8 from N_0]; exact hi0⟩, rfl⟩
  obtain ⟨e0, e1, e2⟩ := index_out t
  refine ⟨t, flush0_7 t, ?_⟩
  rw [mem_block]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 64 ≤ (i 2).val ∧ (i 2).val < win0_7.index t (2 : Fin 3) * 64 + 64; omega

/-! ## The array after the run -/

/-- With the float arguments arrays of real numbers, the result array after the run is the specification's result. -/
theorem final (c : Dev nD) (I : GGNN.Inputs)
    (h0 : m ((c : Thread nD τ).loc main_arg0) = (fun i => ((I.x i : ℝ) : EReal)))
    (h1 : m ((c : Thread nD τ).loc main_arg1) = I.adj)
    (h2 : m ((c : Thread nD τ).loc main_arg2) = (fun i => ((I.w i : ℝ) : EReal)))
    (h3 : m ((c : Thread nD τ).loc main_arg3) = (fun i => ((I.wih i : ℝ) : EReal)))
    (h4 : m ((c : Thread nD τ).loc main_arg4) = (fun i => ((I.whh i : ℝ) : EReal)))
    (h5 : m ((c : Thread nD τ).loc main_arg5) = (fun i => ((I.bih i : ℝ) : EReal)))
    (h6 : m ((c : Thread nD τ).loc main_arg6) = (fun i => ((I.bhh i : ℝ) : EReal))) :
    (dats m 0 c).arrAt 7 cfg0.N = GGNN.result I :=
  (dats m 0 c).arrAt_eq_of_cover 7 (GGNN.result I)
    (fun t _ => written_block m c I h0 h1 h2 h3 h4 h5 h6 t) blocks_cover

end Cert.KernelIdeal.KerArray

end
-- ==== Proof.RefIdx.lean ====
/-
  The three edge lists of the reference, read at an edge. Edge e of the 8 · 512 · 512 edges is (graph g, source s,
  destination t) with e = g · 262144 + s · 512 + t: its source row is g · 512 + s, its destination row g · 512 + t,
  its weight the adjacency entry (g, s, t).
-/
import proofs.«104106_g32573031973289_fold_wed_c4_852_6_alg».proof.Proof.Gen.ReferenceIdeal.Run
import proofs.«104106_g32573031973289_fold_wed_c4_852_6_alg».proof.Proof.Spec
import Idealize.ShloMosaic.Lib.Pipeline.Value

noncomputable section

namespace Cert.ReferenceIdeal.RefIdx

open Cert.ReferenceIdeal Cert.ReferenceIdeal.Gen Cert.ReferenceIdeal.Value Idealize.ShloMosaic Idealize.ShloMosaic.StableHlo Idealize.ShloMosaic.ValueIdx

/-! ## The pieces of the flat edge lists, read at a position

Each list is eight flat pieces of 262144 = 512 · 512 entries laid end to end, one per graph. A piece is a 512 × 512
array read row by row: position p of it is row p / 512, column p % 512. -/

section Pieces
variable {α : Type}

/-- Eight flat pieces of 262144 entries laid end to end, read at position n: piece n / 262144 at n % 262144. -/
theorem concat8_apply (u : Fin 8 → (S262144.Idx → α))
    (h : Shape.Concatenates [S262144, S262144, S262144, S262144, S262144, S262144, S262144, S262144] S2097152 0)
    (e : S2097152.Idx) (g : Fin 8) (p : Fin 262144) (hg : (e 0).val / 262144 = g.val) (hp : p.val = (e 0).val % 262144) :
    concatenate S2097152 0 [⟨S262144, u 0⟩, ⟨S262144, u 1⟩, ⟨S262144, u 2⟩, ⟨S262144, u 3⟩, ⟨S262144, u 4⟩, ⟨S262144, u 5⟩,
        ⟨S262144, u 6⟩, ⟨S262144, u 7⟩] h e = u g (ix1 p) := by
  refine concatenate_ofFn_apply (t := S2097152) (s₁ := S262144) 0 u h rfl 262144 rfl e g hg (ix1 p) hp ?_
  intro b hb
  refine absurd (Fin.ext ?_) hb
  have hb1 : b.val < 1 := b.isLt
  show b.val = 0
  omega

/-- The row numbers of a 512 × 512 array, flattened: position p holds p / 512. -/
theorem flatRow_apply (hb : S512.BroadcastsInDim S512x512 (![0] : Fin 1 → Fin S512x512.rank))
    (hc : S512x512.ShapeCasts S262144) (p : Fin 262144) :
    shapeCast S262144 (broadcastInDim S512x512 ![0] hb (iotaInDim S512 32 0)) hc (ix1 p) = BitVec.ofNat 32 (p.val / 512) := by
  have hp := p.isLt
  refine (shapeCast_apply _ hc (ix1 p) (ix2 (⟨p.val / 512, by omega⟩ : Fin 512) (⟨p.val % 512, by omega⟩ : Fin 512)) ?_).trans ?_
  · rw [Shape.rowMajor_val_two, Shape.rowMajor_val_one]
    show p.val / 512 * 512 + p.val % 512 = p.val
    omega
  · refine (broadcastInDim_apply ![0] hb _ _ (ix1 (⟨p.val / 512, by omega⟩ : Fin 512)) ?_).trans rfl
    intro a
    match a with
    | ⟨0, _⟩ => rfl

/-- The column numbers of a 512 × 512 array, flattened: position p holds p % 512. -/
theorem flatCol_apply (hr : S512.ShapeCasts S1x512)
    (hb : S1x512.BroadcastsInDim S512x512 (![0, 1] : Fin 2 → Fin S512x512.rank))
    (hc : S512x512.ShapeCasts S262144) (p : Fin 262144) :
    shapeCast S262144 (broadcastInDim S512x512 ![0, 1] hb (shapeCast S1x512 (iotaInDim S512 32 0) hr)) hc (ix1 p)
      = BitVec.ofNat 32 (p.val % 512) := by
  have hp := p.isLt
  refine (shapeCast_apply _ hc (ix1 p) (ix2 (⟨p.val / 512, by omega⟩ : Fin 512) (⟨p.val % 512, by omega⟩ : Fin 512)) ?_).trans ?_
  · rw [Shape.rowMajor_val_two, Shape.rowMajor_val_one]
    show p.val / 512 * 512 + p.val % 512 = p.val
    omega
  · refine (broadcastInDim_apply ![0, 1] hb _ _ (ix2 (⟨0, by omega⟩ : Fin 1) (⟨p.val % 512, by omega⟩ : Fin 512)) ?_).trans ?_
    · intro a
      match a with
      | ⟨0, _⟩ => rfl
      | ⟨1, _⟩ => rfl
    · refine (shapeCast_apply _ hr (ix2 (⟨0, by omega⟩ : Fin 1) (⟨p.val % 512, by omega⟩ : Fin 512))
        (ix1 (⟨p.val % 512, by omega⟩ : Fin 512)) ?_).trans rfl
      rw [Shape.rowMajor_val_two, Shape.rowMajor_val_one]
      show p.val % 512 = 0 * 512 + p.val % 512
      omega

/-- Graph g's 512 × 512 slice of an 8 × 512 × 512 array, flattened: position p holds entry (g, p / 512, p % 512). -/
theorem flatSlice_apply (adj : S8x512x512.Idx → α) (g : Fin 8) (hs : S8x512x512.Slices ![g.val, 0, 0] S1x512x512)
    (h1 : S1x512x512.ShapeCasts S512x512) (h2 : S512x512.ShapeCasts S262144) (p : Fin 262144) (s t : Fin 512)
    (hs' : s.val = p.val / 512) (ht : t.val = p.val % 512) :
    shapeCast S262144 (shapeCast S512x512 (extractStridedSlice S1x512x512 ![g.val, 0, 0] adj hs) h1) h2 (ix1 p)
      = adj (ix3 g s t) := by
  refine (shapeCast_apply _ h2 (ix1 p) (ix2 s t) ?_).trans ?_
  · rw [Shape.rowMajor_val_two, Shape.rowMajor_val_one]
    show s.val * 512 + t.val = p.val
    omega
  · refine (shapeCast_apply _ h1 (ix2 s t) (ix3 (⟨0, by omega⟩ : Fin 1) s t) ?_).trans ?_
    · rw [Shape.rowMajor_val_three, Shape.rowMajor_val_two]
      show (0 * 512 + s.val) * 512 + t.val = s.val * 512 + t.val
      omega
    · refine extractStridedSlice_apply ![g.val, 0, 0] adj hs _ (ix3 g s t) ?_
      intro a
      match a with
      | ⟨0, _⟩ => show g.val = g.val + 0; omega
      | ⟨1, _⟩ => show s.val = 0 + s.val; omega
      | ⟨2, _⟩ => show t.val = 0 + t.val; omega

end Pieces

variable (V0 : Valuation τ sig (Elt Ideal))

/-- A flat list of words plus a scalar word broadcast over it, read at a position: the entry plus the word. -/
theorem addi_splat_apply (x : S262144.Idx → BitVec 32) (c : BitVec 32)
    (hb : S_.BroadcastsInDim S262144 (![] : Fin 0 → Fin S262144.rank)) (i : S262144.Idx) :
    addi x (broadcastInDim S262144 ![] hb (constantI S_ 32 c)) i = x i + c :=
  congrArg (x i + ·) ((broadcastInDim_apply ![] hb (constantI S_ 32 c) i ix0 (fun a => a.elim0)).trans rfl)

/-- The flattened row numbers: position p holds p / 512. -/
theorem v2_apply (p : Fin 262144) :
    (res_main_v2 (F := Ideal) V0 : S262144.Idx → BitVec 32) (ix1 p) = BitVec.ofNat 32 (p.val / 512) := by
  unfold res_main_v2
  exact flatRow_apply _ _ p

/-- The flattened column numbers: position p holds p % 512. -/
theorem v6_apply (p : Fin 262144) :
    (res_main_v6 (F := Ideal) V0 : S262144.Idx → BitVec 32) (ix1 p) = BitVec.ofNat 32 (p.val % 512) := by
  unfold res_main_v6
  exact flatCol_apply _ _ _ p

/-- The source row of edge e. -/
theorem src_apply (e : S2097152.Idx) :
    res_main_v63 (F := Ideal) V0 e = BitVec.ofNat 32 ((e 0).val / 262144 * 512 + (e 0).val % 262144 / 512) := by
  have hlt : (e 0).val < 2097152 := (e 0).isLt
  unfold res_main_v63
  -- the eight pieces are one family: the flattened row numbers plus 512 times the graph number
  refine (concat8_apply
    (fun g : Fin 8 => addi (s := S262144) (w := 32) (res_main_v2 (F := Ideal) V0)
      (broadcastInDim S262144 ![] bcast_S_S262144 (constantI S_ 32 (BitVec.ofNat 32 (g.val * 512)))))
    _ e ⟨(e 0).val / 262144, by omega⟩ ⟨(e 0).val % 262144, by omega⟩ rfl rfl).trans ?_
  refine (addi_splat_apply _ _ _ _).trans ?_
  refine (congrArg (fun x : BitVec 32 => x + _) (v2_apply V0 _)).trans ?_
  show BitVec.ofNat 32 ((e 0).val % 262144 / 512) + BitVec.ofNat 32 ((e 0).val / 262144 * 512) = _
  rw [← BitVec.ofNat_add, Nat.add_comm]

/-- The destination row of edge e. -/
theorem dst_apply (e : S2097152.Idx) :
    res_main_v64 (F := Ideal) V0 e = BitVec.ofNat 32 ((e 0).val / 262144 * 512 + (e 0).val % 512) := by
  have hlt : (e 0).val < 2097152 := (e 0).isLt
  unfold res_main_v64
  -- the eight pieces are one family: the flattened column numbers plus 512 times the graph number
  refine (concat8_apply
    (fun g : Fin 8 => addi (s := S262144) (w := 32) (res_main_v6 (F := Ideal) V0)
      (broadcastInDim S262144 ![] bcast_S_S262144 (constantI S_ 32 (BitVec.ofNat 32 (g.val * 512)))))
    _ e ⟨(e 0).val / 262144, by omega⟩ ⟨(e 0).val % 262144, by omega⟩ rfl rfl).trans ?_
  refine (addi_splat_apply _ _ _ _).trans ?_
  refine (congrArg (fun x : BitVec 32 => x + _) (v6_apply V0 _)).trans ?_
  show BitVec.ofNat 32 ((e 0).val % 262144 % 512) + BitVec.ofNat 32 ((e 0).val / 262144 * 512) = _
  rw [← BitVec.ofNat_add, Nat.add_comm]
  congr 2
  omega

/-- The weight of edge e: the adjacency entry of its graph, source and destination. -/
theorem wt_apply (e : S2097152.Idx) :
    res_main_v65 (F := Ideal) V0 e
      = (V0 (Proc.devRef .tc main_arg1) : S8x512x512.Idx → BitVec 32)
          (ix3 (⟨(e 0).val / 262144, by have h : (e 0).val < 2097152 := (e 0).isLt; omega⟩ : Fin 8)
               (⟨(e 0).val % 262144 / 512, by have h : (e 0).val < 2097152 := (e 0).isLt; omega⟩ : Fin 512)
               (⟨(e 0).val % 512, by omega⟩ : Fin 512)) := by
  have hlt : (e 0).val < 2097152 := (e 0).isLt
  have hsl : ∀ g : Fin 8, S8x512x512.Slices ![g.val, 0, 0] S1x512x512 := by decide
  unfold res_main_v65
  -- the eight pieces are one family: graph g's slice of the adjacency, flattened
  refine (concat8_apply
    (fun g : Fin 8 => shapeCast S262144 (shapeCast S512x512
      (extractStridedSlice S1x512x512 ![g.val, 0, 0] (V0 (Proc.devRef .tc main_arg1) : S8x512x512.Idx → BitVec 32) (hsl g))
      shapeCasts_S1x512x512_S512x512) shapeCasts_S512x512_S262144)
    _ e ⟨(e 0).val / 262144, by omega⟩ ⟨(e 0).val % 262144, by omega⟩ rfl rfl).trans ?_
  exact flatSlice_apply _ _ _ _ _ _ _ _ rfl (by show (e 0).val % 512 = (e 0).val % 262144 % 512; omega)

end Cert.ReferenceIdeal.RefIdx

end
-- ==== Proof.RefAgg.lean ====
/-
  The reference's aggregation read at an entry. It gathers every edge's source message, multiplies it by the edge's
  weight and adds it into the edge's destination row. Row g · 512 + t receives exactly the 512 edges (g, s, t), one per
  source s, so its entry is the sum over s of the message of row g · 512 + s times the adjacency entry (g, s, t).
  Nothing here needs finiteness: the sum is only re-indexed.
-/
import proofs.«104106_g32573031973289_fold_wed_c4_852_6_alg».proof.Proof.Gen.ReferenceIdeal.Run
import proofs.«104106_g32573031973289_fold_wed_c4_852_6_alg».proof.Proof.Spec
import proofs.«104106_g32573031973289_fold_wed_c4_852_6_alg».proof.Proof.RefIdx
import Idealize.ShloMosaic.Lib.StableHlo.Predicate

noncomputable section

namespace Cert.ReferenceIdeal.RefAgg

open Cert.ReferenceIdeal Cert.ReferenceIdeal.Gen Cert.ReferenceIdeal.Value Idealize.ShloMosaic Idealize.ShloMosaic.StableHlo Idealize.ShloMosaic.ValueIdx GGNN

variable (V0 : Valuation τ sig (Elt Ideal))

/-- The aggregation of a message array M, as the reference's operations compute it. -/
def aggTerm (M : FVec Ideal S4096x64 .f32) : FVec Ideal S4096x64 .f32 :=
  Host.scatterAdd scatter_S4096x64_S2097152x1_S2097152x64_1_0_0_1 (broadcastInDim S4096x64 ![] bcast_S_S4096x64 (constant S_ .f32 0x00000000#32)) (broadcastInDim S2097152x1 ![0] bcast_S2097152_S2097152x1_0 (res_main_v64 V0)) (mulf (Host.gather gather_S4096x64_S2097152x1_S2097152x64_1_0_n_n_0_1_164 M (broadcastInDim S2097152x1 ![0] bcast_S2097152_S2097152x1_0 (select (cmpi .slt (res_main_v63 V0) (broadcastInDim S2097152 ![] bcast_S_S2097152 (constantI S_ 32 0#32))) (addi (res_main_v63 V0) (broadcastInDim S2097152 ![] bcast_S_S2097152 (constantI S_ 32 4096#32))) (res_main_v63 V0)))) (broadcastInDim S2097152x64 ![0, 1] bcast_S2097152x1_S2097152x64_0_1 (broadcastInDim S2097152x1 ![0] bcast_S2097152_S2097152x1_0 (sitofp .f32 (res_main_v65 V0)))))

/-! ## Edges -/

/-- Edge (g, s, t) among the 8 · 512 · 512 edges, in the order the edge lists are laid out. -/
abbrev edge (g : Fin 8) (s t : Fin 512) : Fin 2097152 := ⟨g.val * 262144 + s.val * 512 + t.val, by omega⟩

/-! ## The two broadcasts of a column -/

/-- A vector over the edges kept as a column reads, at (e, 0), the vector at e. -/
theorem bcast_col {α : Type} (v : S2097152.Idx → α) (e : Fin 2097152) (z : Fin 1) :
    broadcastInDim S2097152x1 ![0] bcast_S2097152_S2097152x1_0 v (ix2 e z) = v (ix1 e) :=
  broadcastInDim_apply _ _ v _ (ix1 e) (fun a => match a with | ⟨0, _⟩ => rfl)

/-- A column laid along 64 features reads, at (e, o), the column at (e, 0). -/
theorem bcast_feat {α : Type} (v : S2097152x1.Idx → α) (e : Fin 2097152) (o : Fin 64) :
    broadcastInDim S2097152x64 ![0, 1] bcast_S2097152x1_S2097152x64_0_1 v (ix2 e o) = v (ix2 e (0 : Fin 1)) :=
  broadcastInDim_apply _ _ v _ (ix2 e (0 : Fin 1)) (fun a => match a with | ⟨0, _⟩ => rfl | ⟨1, _⟩ => rfl)

/-! ## The row gather and the row scatter at an index -/

/-- The gather of whole rows: result entry (e, o) is the table's entry (r, o), r the start index of e read signed
    and clamped into the 4096 rows. -/
theorem gather_row {α : Type} {w : Nat} (x : S4096x64.Idx → α) (idx : IVec S2097152x1 w) (e : Fin 2097152) (o : Fin 64) :
    Host.gather gather_S4096x64_S2097152x1_S2097152x64_1_0_n_n_0_1_164 x idx (ix2 e o)
      = x (ix2 (⟨min (idx (ix2 e (0 : Fin 1))).toInt.toNat 4095, by omega⟩ : Fin 4096) o) := by
  unfold Host.gather
  refine congrArg x (funext fun a => Fin.ext ?_)
  match a with
  | ⟨0, _⟩ =>
    show gather_S4096x64_S2097152x1_S2097152x64_1_0_n_n_0_1_164.start (ix2 e o) idx 0
        + gather_S4096x64_S2097152x1_S2097152x64_1_0_n_n_0_1_164.batchCoord (ix2 e o) 0
        + gather_S4096x64_S2097152x1_S2097152x64_1_0_n_n_0_1_164.offCoord (ix2 e o) 0
      = min (idx (ix2 e (0 : Fin 1))).toInt.toNat 4095
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S4096x64_S2097152x1_S2097152x64_1_0_n_n_0_1_164.startIndexMap from
      List.mem_singleton.mpr rfl)]
    have hsi : gather_S4096x64_S2097152x1_S2097152x64_1_0_n_n_0_1_164.siIdx (ix2 e o)
        ⟨List.idxOf (0 : Fin 2) gather_S4096x64_S2097152x1_S2097152x64_1_0_n_n_0_1_164.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S4096x64_S2097152x1_S2097152x64_1_0_n_n_0_1_164.start (ix2 e o) idx 1
        + gather_S4096x64_S2097152x1_S2097152x64_1_0_n_n_0_1_164.batchCoord (ix2 e o) 1
        + gather_S4096x64_S2097152x1_S2097152x64_1_0_n_n_0_1_164.offCoord (ix2 e o) 1
      = o.val
    rw [GatherDims.batchCoord_eq_zero _ _ _ List.not_mem_nil]
    unfold GatherDims.start GatherDims.offCoord
    rw [dif_neg (show (1 : Fin 2) ∉ gather_S4096x64_S2097152x1_S2097152x64_1_0_n_n_0_1_164.startIndexMap from by decide),
      dif_pos (show (1 : Fin 2) ∈ gather_S4096x64_S2097152x1_S2097152x64_1_0_n_n_0_1_164.sKept from by decide)]
    show 0 + 0 + o.val = o.val
    omega

/-- The scatter of whole rows: update entry (e, o) lands at (r, o) when the scatter index of e, read signed, is the
    row r. -/
theorem scatter_row {w : Nat} (idx : IVec S2097152x1 w) (e : Fin 2097152) (o : Fin 64) (r : Fin 4096)
    (h : (idx (ix2 e (0 : Fin 1))).toInt = (r.val : ℤ)) :
    scatter_S4096x64_S2097152x1_S2097152x64_1_0_0_1.resultIdx? (ix2 e o) idx = some (ix2 r o) := by
  have hs0 : scatter_S4096x64_S2097152x1_S2097152x64_1_0_0_1.start (ix2 e o) idx 0 = (r.val : ℤ) := by
    unfold ScatterDims.start
    rw [dif_pos (show (0 : Fin 2) ∈ scatter_S4096x64_S2097152x1_S2097152x64_1_0_0_1.scatterDimsToOperandDims from
      List.mem_singleton.mpr rfl)]
    have hsi : scatter_S4096x64_S2097152x1_S2097152x64_1_0_0_1.siIdx (ix2 e o)
        ⟨List.idxOf (0 : Fin 2) scatter_S4096x64_S2097152x1_S2097152x64_1_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, h]
  have hs1 : scatter_S4096x64_S2097152x1_S2097152x64_1_0_0_1.start (ix2 e o) idx 1 = 0 := by
    unfold ScatterDims.start
    rw [dif_neg (show (1 : Fin 2) ∉ scatter_S4096x64_S2097152x1_S2097152x64_1_0_0_1.scatterDimsToOperandDims from by decide)]
  have hw0 : scatter_S4096x64_S2097152x1_S2097152x64_1_0_0_1.window (ix2 e o) 0 = 0 := by
    unfold ScatterDims.window
    rw [dif_neg (show (0 : Fin 2) ∉ scatter_S4096x64_S2097152x1_S2097152x64_1_0_0_1.sKept from by decide)]
  have hw1 : scatter_S4096x64_S2097152x1_S2097152x64_1_0_0_1.window (ix2 e o) 1 = o.val := by
    unfold ScatterDims.window
    rw [dif_pos (show (1 : Fin 2) ∈ scatter_S4096x64_S2097152x1_S2097152x64_1_0_0_1.sKept from by decide)]
    rfl
  have hr := r.isLt
  have ho := o.isLt
  have hall : ∀ a, 0 ≤ scatter_S4096x64_S2097152x1_S2097152x64_1_0_0_1.start (ix2 e o) idx a
        + scatter_S4096x64_S2097152x1_S2097152x64_1_0_0_1.window (ix2 e o) a
      ∧ scatter_S4096x64_S2097152x1_S2097152x64_1_0_0_1.start (ix2 e o) idx a
        + scatter_S4096x64_S2097152x1_S2097152x64_1_0_0_1.window (ix2 e o) a < S4096x64.size a := by
    intro a
    match a with
    | ⟨0, _⟩ =>
      show 0 ≤ scatter_S4096x64_S2097152x1_S2097152x64_1_0_0_1.start (ix2 e o) idx 0
            + (scatter_S4096x64_S2097152x1_S2097152x64_1_0_0_1.window (ix2 e o) 0 : ℕ)
          ∧ scatter_S4096x64_S2097152x1_S2097152x64_1_0_0_1.start (ix2 e o) idx 0
            + (scatter_S4096x64_S2097152x1_S2097152x64_1_0_0_1.window (ix2 e o) 0 : ℕ) < ((4096 : ℕ) : ℤ)
      rw [hs0, hw0]; omega
    | ⟨1, _⟩ =>
      show 0 ≤ scatter_S4096x64_S2097152x1_S2097152x64_1_0_0_1.start (ix2 e o) idx 1
            + (scatter_S4096x64_S2097152x1_S2097152x64_1_0_0_1.window (ix2 e o) 1 : ℕ)
          ∧ scatter_S4096x64_S2097152x1_S2097152x64_1_0_0_1.start (ix2 e o) idx 1
            + (scatter_S4096x64_S2097152x1_S2097152x64_1_0_0_1.window (ix2 e o) 1 : ℕ) < ((64 : ℕ) : ℤ)
      rw [hs1, hw1]; omega
  unfold ScatterDims.resultIdx?
  rw [dif_pos hall]
  refine congrArg some (funext fun a => Fin.ext ?_)
  match a with
  | ⟨0, _⟩ =>
    show (scatter_S4096x64_S2097152x1_S2097152x64_1_0_0_1.start (ix2 e o) idx 0
        + (scatter_S4096x64_S2097152x1_S2097152x64_1_0_0_1.window (ix2 e o) 0 : ℕ)).toNat = r.val
    rw [hs0, hw0]; omega
  | ⟨1, _⟩ =>
    show (scatter_S4096x64_S2097152x1_S2097152x64_1_0_0_1.start (ix2 e o) idx 1
        + (scatter_S4096x64_S2097152x1_S2097152x64_1_0_0_1.window (ix2 e o) 1 : ℕ)).toNat = o.val
    rw [hs1, hw1]; omega

/-! ## The three columns of the reference at an edge -/

/-- The scatter index of edge e, read signed: its destination row. -/
theorem dstCol_apply (e : Fin 2097152) :
    (broadcastInDim S2097152x1 ![0] bcast_S2097152_S2097152x1_0 (res_main_v64 V0) (ix2 e (0 : Fin 1))).toInt
      = ((e.val / 262144 * 512 + e.val % 512 : ℕ) : ℤ) := by
  rw [bcast_col, RefIdx.dst_apply]
  exact Predicate.toInt_ofNat_small _ (by have := e.isLt; show e.val / 262144 * 512 + e.val % 512 < 2 ^ 31; omega)

/-- The gather's start index of edge e, read signed: its source row (the wrap of a negative index never applies). -/
theorem srcCol_apply (e : Fin 2097152) :
    (broadcastInDim S2097152x1 ![0] bcast_S2097152_S2097152x1_0 (select (cmpi .slt (res_main_v63 V0) (broadcastInDim S2097152 ![] bcast_S_S2097152 (constantI S_ 32 0#32))) (addi (res_main_v63 V0) (broadcastInDim S2097152 ![] bcast_S_S2097152 (constantI S_ 32 4096#32))) (res_main_v63 V0)) (ix2 e (0 : Fin 1))).toInt
      = ((e.val / 262144 * 512 + e.val % 262144 / 512 : ℕ) : ℤ) := by
  have he := e.isLt
  have hlt : e.val / 262144 * 512 + e.val % 262144 / 512 < 2 ^ 31 := by omega
  rw [bcast_col, select_apply]
  have hc : cmpi .slt (res_main_v63 V0) (broadcastInDim S2097152 ![] bcast_S_S2097152 (constantI S_ 32 0#32)) (ix1 e) = 0#1 := by
    show BitVec.ofBool ((res_main_v63 V0 (ix1 e)).slt (BitVec.ofNat 32 0)) = 0#1
    rw [RefIdx.src_apply]
    refine eq_zero_of_ne_one fun h1 => ?_
    have := (Predicate.slt_ofNat_iff _ 0 hlt (by norm_num)).1 h1
    omega
  rw [hc, select_zero, RefIdx.src_apply]
  exact Predicate.toInt_ofNat_small _ hlt

/-- The weight column laid along the features reads, at (e, o), the weight of edge e as a real number. -/
theorem wtCol_apply (e : Fin 2097152) (o : Fin 64) :
    (broadcastInDim S2097152x64 ![0, 1] bcast_S2097152x1_S2097152x64_0_1 (broadcastInDim S2097152x1 ![0] bcast_S2097152_S2097152x1_0 (sitofp .f32 (res_main_v65 V0))) : FVec Ideal S2097152x64 .f32) (ix2 e o)
      = ((((res_main_v65 V0 (ix1 e)).toInt : ℝ)) : EReal) := by
  rw [bcast_feat, bcast_col]
  rfl

/-- The update of edge (g, s, t) at feature o: the message of the source row times the adjacency entry. -/
theorem upd_apply (M : FVec Ideal S4096x64 .f32) (g : Fin 8) (s t : Fin 512) (o : Fin 64) :
    mulf (Host.gather gather_S4096x64_S2097152x1_S2097152x64_1_0_n_n_0_1_164 M (broadcastInDim S2097152x1 ![0] bcast_S2097152_S2097152x1_0 (select (cmpi .slt (res_main_v63 V0) (broadcastInDim S2097152 ![] bcast_S_S2097152 (constantI S_ 32 0#32))) (addi (res_main_v63 V0) (broadcastInDim S2097152 ![] bcast_S_S2097152 (constantI S_ 32 4096#32))) (res_main_v63 V0)))) (broadcastInDim S2097152x64 ![0, 1] bcast_S2097152x1_S2097152x64_0_1 (broadcastInDim S2097152x1 ![0] bcast_S2097152_S2097152x1_0 (sitofp .f32 (res_main_v65 V0)))) (ix2 (edge g s t) o)
      = M (ix2 (GGNN.row g s) o)
          * ((((V0 (Proc.devRef .tc main_arg1) : S8x512x512.Idx → BitVec 32) (ix3 g s t)).toInt : ℝ) : EReal) := by
  have hg := g.isLt
  have hs := s.isLt
  have ht := t.isLt
  rw [mulf_apply, gather_row, wtCol_apply, RefIdx.wt_apply]
  refine congrArg₂ (· * ·) (congrArg M (congrArg (fun r => ix2 r o) (Fin.ext ?_))) ?_
  · show min (broadcastInDim S2097152x1 ![0] bcast_S2097152_S2097152x1_0 (select (cmpi .slt (res_main_v63 V0) (broadcastInDim S2097152 ![] bcast_S_S2097152 (constantI S_ 32 0#32))) (addi (res_main_v63 V0) (broadcastInDim S2097152 ![] bcast_S_S2097152 (constantI S_ 32 4096#32))) (res_main_v63 V0)) (ix2 (edge g s t) (0 : Fin 1))).toInt.toNat 4095
      = g.val * 512 + s.val
    rw [srcCol_apply, Int.toNat_natCast]
    show min ((g.val * 262144 + s.val * 512 + t.val) / 262144 * 512 + (g.val * 262144 + s.val * 512 + t.val) % 262144 / 512) 4095 = g.val * 512 + s.val
    omega
  · refine congrArg (fun z : BitVec 32 => ((z.toInt : ℝ) : EReal)) (congrArg _ ?_)
    funext a
    match a with
    | ⟨0, _⟩ => exact Fin.ext (show (g.val * 262144 + s.val * 512 + t.val) / 262144 = g.val by omega)
    | ⟨1, _⟩ => exact Fin.ext (show (g.val * 262144 + s.val * 512 + t.val) % 262144 / 512 = s.val by omega)
    | ⟨2, _⟩ => exact Fin.ext (show (g.val * 262144 + s.val * 512 + t.val) % 512 = t.val by omega)

/-! ## The aggregation at an entry -/

/-! ## The aggregation at an entry -/

/-- The scatter indices: every edge's destination row, as a column. -/
def dstIdx : IVec S2097152x1 32 := broadcastInDim S2097152x1 ![0] bcast_S2097152_S2097152x1_0 (res_main_v64 V0)

/-- The updates: every edge's gathered source message times its weight. -/
def updTerm (M : FVec Ideal S4096x64 .f32) : FVec Ideal S2097152x64 .f32 :=
  mulf (Host.gather gather_S4096x64_S2097152x1_S2097152x64_1_0_n_n_0_1_164 M (broadcastInDim S2097152x1 ![0] bcast_S2097152_S2097152x1_0 (select (cmpi .slt (res_main_v63 V0) (broadcastInDim S2097152 ![] bcast_S_S2097152 (constantI S_ 32 0#32))) (addi (res_main_v63 V0) (broadcastInDim S2097152 ![] bcast_S_S2097152 (constantI S_ 32 4096#32))) (res_main_v63 V0)))) (broadcastInDim S2097152x64 ![0, 1] bcast_S2097152x1_S2097152x64_0_1 (broadcastInDim S2097152x1 ![0] bcast_S2097152_S2097152x1_0 (sitofp .f32 (res_main_v65 V0))))

/-- An accumulating scatter into the zero array, read at an entry: the sum of the updates that land on it. -/
theorem scatterAdd_zero_apply {s si u : Shape} {w : Nat} (d : ScatterDims s si u)
    (hb : S_.BroadcastsInDim s (![] : Fin 0 → Fin s.rank)) (idx : IVec si w) (upd : FVec Ideal u .f32) (i : s.Idx) :
    Host.scatterAdd d (broadcastInDim s ![] hb (constant S_ .f32 0x00000000#32)) idx upd i
      = ∑ j ∈ Finset.univ.filter (fun j => d.resultIdx? j idx = some i), upd j := by
  show Ideal.ofBits .f32 0x00000000#32 + (∑ j ∈ Finset.univ.filter (fun j => d.resultIdx? j idx = some i), upd j) = _
  rw [Ideal.ofBits_zero_f32, zero_add]

/-- The aggregation at an entry is the sum of the updates whose destination is that entry. -/
theorem aggTerm_sum (M : FVec Ideal S4096x64 .f32) (i : S4096x64.Idx) :
    aggTerm V0 M i
      = ∑ j ∈ Finset.univ.filter (fun j => scatter_S4096x64_S2097152x1_S2097152x64_1_0_0_1.resultIdx? j (dstIdx V0) = some i),
          updTerm V0 M j :=
  scatterAdd_zero_apply scatter_S4096x64_S2097152x1_S2097152x64_1_0_0_1 bcast_S_S4096x64 (dstIdx V0) (updTerm V0 M) i

/-- Where the update of edge e at feature o' lands: its destination row, same feature. -/
theorem land_apply (e : Fin 2097152) (o' : Fin 64) :
    scatter_S4096x64_S2097152x1_S2097152x64_1_0_0_1.resultIdx? (ix2 e o') (dstIdx V0)
      = some (ix2 (⟨e.val / 262144 * 512 + e.val % 512, by have := e.isLt; omega⟩ : Fin 4096) o') :=
  scatter_row _ e o' _ (dstCol_apply V0 e)

/-- The update of edge (g, s, t) at feature o, as the updates' array reads it. -/
theorem updTerm_apply (M : FVec Ideal S4096x64 .f32) (g : Fin 8) (s t : Fin 512) (o : Fin 64) :
    updTerm V0 M (ix2 (edge g s t) o)
      = M (ix2 (GGNN.row g s) o)
          * ((((V0 (Proc.devRef .tc main_arg1) : S8x512x512.Idx → BitVec 32) (ix3 g s t)).toInt : ℝ) : EReal) :=
  upd_apply V0 M g s t o

/-- Entry (g · 512 + t, o) of the aggregation: the sum over the sources s of M (g · 512 + s, o) times the weight (g, s, t). -/
theorem aggTerm_apply (M : FVec Ideal S4096x64 .f32) (g : Fin 8) (t : Fin 512) (o : Fin 64) :
    aggTerm V0 M (ix2 (GGNN.row g t) o)
      = ∑ s : Fin 512, M (ix2 (GGNN.row g s) o)
          * ((((V0 (Proc.devRef .tc main_arg1) : S8x512x512.Idx → BitVec 32) (ix3 g s t)).toInt : ℝ) : EReal) := by
  have hg := g.isLt
  have ht := t.isLt
  refine (aggTerm_sum V0 M (ix2 (GGNN.row g t) o)).trans ?_
  -- the updates landing on (g · 512 + t, o) are those of the edges (g, s, t) at feature o, one per source s
  refine (Finset.sum_bij' (fun (s : Fin 512) _ => (ix2 (edge g s t) o : S2097152x64.Idx))
    (fun (j : S2097152x64.Idx) _ => (⟨(j 0).val % 262144 / 512, by omega⟩ : Fin 512)) ?_ ?_ ?_ ?_ ?_).symm
  · intro s _
    have hs := s.isLt
    refine Finset.mem_filter.2 ⟨Finset.mem_univ _, ?_⟩
    rw [land_apply]
    refine congrArg some (congrArg (fun r => ix2 r o) (Fin.ext ?_))
    show (g.val * 262144 + s.val * 512 + t.val) / 262144 * 512 + (g.val * 262144 + s.val * 512 + t.val) % 512 = g.val * 512 + t.val
    omega
  · intro _ _; exact Finset.mem_univ _
  · intro s _
    have hs := s.isLt
    refine Fin.ext ?_
    show (g.val * 262144 + s.val * 512 + t.val) % 262144 / 512 = s.val
    omega
  · intro j hj
    obtain ⟨e, o', rfl⟩ : ∃ (e : Fin 2097152) (o' : Fin 64), j = ix2 e o' := ⟨j 0, j 1, eq_ix2 j⟩
    have he := e.isLt
    have h := (Finset.mem_filter.1 hj).2
    rw [land_apply] at h
    have h2 := Option.some.inj h
    have h0 : e.val / 262144 * 512 + e.val % 512 = g.val * 512 + t.val :=
      congrArg (fun i : S4096x64.Idx => (i 0).val) h2
    have h1 : o' = o := congrFun h2 1
    subst h1
    refine congrArg (fun r => ix2 r o') (Fin.ext ?_)
    show g.val * 262144 + e.val % 262144 / 512 * 512 + t.val = e.val
    omega
  · intro s _
    exact (updTerm_apply V0 M g s t o).symm

end Cert.ReferenceIdeal.RefAgg

end
-- ==== Proof.RefLayer.lean ====
/-
  The reference's result is the specification's result: each of its two layers, read at row g · 512 + d, is the real
  layer of graph g — the message product and the gate products are sums of real products, the aggregation is the sum
  over the sources, the logistic function is the host's 1 / (1 + e^(−x)).
-/
import proofs.«104106_g32573031973289_fold_wed_c4_852_6_alg».proof.Proof.Gen.ReferenceIdeal.Run
import proofs.«104106_g32573031973289_fold_wed_c4_852_6_alg».proof.Proof.Spec
import proofs.«104106_g32573031973289_fold_wed_c4_852_6_alg».proof.Proof.RefAgg
import Idealize.ShloMosaic.Lib.Pipeline.Value
import Idealize.ShloMosaic.Lib.ValueLayout

noncomputable section

namespace Cert.ReferenceIdeal.RefLayer

open Cert.ReferenceIdeal Cert.ReferenceIdeal.Gen Cert.ReferenceIdeal.Value Idealize.ShloMosaic Idealize.ShloMosaic.StableHlo Idealize.ShloMosaic.ValueIdx GGNN
open scoped BigOperators

variable (V0 : Valuation τ sig (Elt Ideal))

/-! ## The two host products read at an entry -/

theorem lhs64_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs64_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs64_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs64_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- Entry (r, j) of the product of a [4096, 64] array with a [64, 64] matrix: the sum over the 64 shared coordinates. -/
theorem dot64_apply (Lh : FVec Ideal S4096x64 .f32) (Rh : FVec Ideal S64x64 .f32) (r : Fin 4096) (j : Fin 64) :
    Host.dotGeneral (F := Ideal) dot_S4096x64_S64x64_S4096x64_1_0_0_1_n_n none Lh Rh (ix2 r j)
      = ∑ k : Fin 64, Lh (ix2 r k) * Rh (ix2 k j) := by
  simp only [Host.dotGeneral]
  rw [Ideal.dotGeneral_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 r j) ((ValueIdx.contrEquiv1 dot_S4096x64_S64x64_S4096x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S4096x64_S64x64_S4096x64_1_0_0_1_n_n.rhsIdx (ix2 r j) ((ValueIdx.contrEquiv1 dot_S4096x64_S64x64_S4096x64_1_0_0_1_n_n 64 rfl rfl).symm k) = ix2 k j := funext fun a => Fin.ext (by
    match a with
    | ⟨0, _⟩ => exact (rhs64_0 _ _).trans hk
    | ⟨1, _⟩ => exact rhs64_1 _ _)
  rw [el, er]

theorem lhs192_0 (i : S4096x192.Idx) (q : dot_S4096x64_S64x192_S4096x192_1_0_0_1_n_n.contr.Idx) :
    (dot_S4096x64_S64x192_S4096x192_1_0_0_1_n_n.lhsIdx i q 0).val = (i 0).val := by
  unfold DotDims.lhsIdx
  rw [dif_neg (show ¬(0 : Fin S4096x64.rank) ∈ dot_S4096x64_S64x192_S4096x192_1_0_0_1_n_n.lhsBatch by decide), dif_pos (show (0 : Fin S4096x64.rank) ∈ dot_S4096x64_S64x192_S4096x192_1_0_0_1_n_n.lhsNonContracting by decide)]
  rfl
theorem lhs192_1 (i : S4096x192.Idx) (q : dot_S4096x64_S64x192_S4096x192_1_0_0_1_n_n.contr.Idx) :
    (dot_S4096x64_S64x192_S4096x192_1_0_0_1_n_n.lhsIdx i q 1).val = (q ⟨0, by decide⟩).val :=
  dot_S4096x64_S64x192_S4096x192_1_0_0_1_n_n.lhsIdx_val_of_single rfl i q
theorem rhs192_0 (i : S4096x192.Idx) (q : dot_S4096x64_S64x192_S4096x192_1_0_0_1_n_n.contr.Idx) :
    (dot_S4096x64_S64x192_S4096x192_1_0_0_1_n_n.rhsIdx i q 0).val = (q ⟨0, by decide⟩).val :=
  dot_S4096x64_S64x192_S4096x192_1_0_0_1_n_n.rhsIdx_val_of_single rfl i q
theorem rhs192_1 (i : S4096x192.Idx) (q : dot_S4096x64_S64x192_S4096x192_1_0_0_1_n_n.contr.Idx) :
    (dot_S4096x64_S64x192_S4096x192_1_0_0_1_n_n.rhsIdx i q 1).val = (i 1).val := by
  unfold DotDims.rhsIdx
  rw [dif_neg (show ¬(1 : Fin S64x192.rank) ∈ dot_S4096x64_S64x192_S4096x192_1_0_0_1_n_n.rhsBatch by decide), dif_pos (show (1 : Fin S64x192.rank) ∈ dot_S4096x64_S64x192_S4096x192_1_0_0_1_n_n.rhsNonContracting by decide)]
  rfl

/-- Entry (r, j) of the product of a [4096, 64] array with a [64, 192] matrix. -/
theorem dot192_apply (Lh : FVec Ideal S4096x64 .f32) (Rh : FVec Ideal S64x192 .f32) (r : Fin 4096) (j : Fin 192) :
    Host.dotGeneral (F := Ideal) dot_S4096x64_S64x192_S4096x192_1_0_0_1_n_n none Lh Rh (ix2 r j)
      = ∑ k : Fin 64, Lh (ix2 r k) * Rh (ix2 k j) := by
  simp only [Host.dotGeneral]
  rw [Ideal.dotGeneral_apply, ← Equiv.sum_comp (ValueIdx.contrEquiv1 dot_S4096x64_S64x192_S4096x192_1_0_0_1_n_n 64 rfl rfl).symm]
  refine Finset.sum_congr rfl fun k _ => ?_
  have hk := ValueIdx.contrEquiv1_symm_val dot_S4096x64_S64x192_S4096x192_1_0_0_1_n_n 64 rfl rfl k
  have el : dot_S4096x64_S64x192_S4096x192_1_0_0_1_n_n.lhsIdx (ix2 r j) ((ValueIdx.contrEquiv1 dot_S4096x64_S64x192_S4096x192_1_0_0_1_n_n 64 rfl rfl).symm k) = ix2 r k := funext fun a => Fin.ext (by
    match a with
    | ⟨0, _⟩ => exact lhs192_0 _ _
    | ⟨1, _⟩ => exact (lhs192_1 _ _).trans hk)
  have er : dot_S4096x64_S64x192_S4096x192_1_0_0_1_n_n.rhsIdx (ix2 r j) ((ValueIdx.contrEquiv1 dot_S4096x64_S64x192_S4096x192_1_0_0_1_n_n 64 rfl rfl).symm k) = ix2 k j := funext fun a => Fin.ext (by
    match a with
    | ⟨0, _⟩ => exact (rhs192_0 _ _).trans hk
    | ⟨1, _⟩ => exact rhs192_1 _ _)
  rw [el, er]

/-! ## Layout operations read at an entry -/

/-- The gate bias laid along the rows: entry (r, j) is the bias at j. -/
theorem bias_apply (v : FVec Ideal S192 .f32) (r : Fin 4096) (j : Fin 192) :
    broadcastInDim S4096x192 ![0, 1] bcast_S1x192_S4096x192_0_1 (broadcastInDim S1x192 ![1] bcast_S192_S1x192_1 v) (ix2 r j)
      = v (ix1 j) := by
  refine (broadcastInDim_apply _ _ _ (ix2 r j) (ix2 (0 : Fin 1) j) (fun a => ?_)).trans ?_
  · match a with
    | ⟨0, _⟩ => rfl
    | ⟨1, _⟩ => rfl
  · exact broadcastInDim_apply _ _ _ (ix2 (0 : Fin 1) j) (ix1 j) (fun a => by match a with | ⟨0, _⟩ => rfl)

/-- A gate matrix transposed: entry (k, j) is the matrix at (j, k). -/
theorem wT_apply (w : FVec Ideal S192x64 .f32) (k : Fin 64) (j : Fin 192) :
    transpose S64x192 [1, 0] w transposes_S192x64_S64x192_1_0 (ix2 k j) = w (ix2 j k) :=
  transpose_ix2_apply w transposes_S192x64_S64x192_1_0 k j

/-- The splat of the float word of 1.0 is 1 at every entry. -/
theorem one_apply (i : S4096x64.Idx) :
    broadcastInDim S4096x64 ![] bcast_S_S4096x64 (constant (F := Ideal) S_ .f32 0x3F800000#32) i = ((1 : ℝ) : EReal) :=
  GGNN.ofBits_one_f32

/-- The three thirds of the gate columns. -/
theorem third0_apply (X : FVec Ideal S4096x192 .f32) (r : Fin 4096) (o : Fin 64) :
    extractStridedSlice S4096x64 ![0, 0] X slices_S4096x192_S4096x64_0_0 (ix2 r o) = X (ix2 r (c0 o)) :=
  slice2_axis1_apply 0 X slices_S4096x192_S4096x64_0_0 r o (c0 o) (by show o.val = 0 + o.val; omega)
theorem third1_apply (X : FVec Ideal S4096x192 .f32) (r : Fin 4096) (o : Fin 64) :
    extractStridedSlice S4096x64 ![0, 64] X slices_S4096x192_S4096x64_0_64 (ix2 r o) = X (ix2 r (c1 o)) :=
  slice2_axis1_apply 64 X slices_S4096x192_S4096x64_0_64 r o (c1 o) (by show o.val + 64 = 64 + o.val; omega)
theorem third2_apply (X : FVec Ideal S4096x192 .f32) (r : Fin 4096) (o : Fin 64) :
    extractStridedSlice S4096x64 ![0, 128] X slices_S4096x192_S4096x64_0_128 (ix2 r o) = X (ix2 r (c2 o)) :=
  slice2_axis1_apply 128 X slices_S4096x192_S4096x64_0_128 r o (c2 o) (by show o.val + 128 = 128 + o.val; omega)

/-- The states flattened to 4096 rows: row g · 512 + d is node d of graph g. -/
theorem flat_apply (x : FVec Ideal S8x512x64 .f32) (g : Fin 8) (d : Fin 512) (k : Fin 64) :
    shapeCast S4096x64 x shapeCasts_S8x512x64_S4096x64 (ix2 (GGNN.row g d) k) = x (ix3 g d k) :=
  shapeCast_apply x shapeCasts_S8x512x64_S4096x64 _ _ (by
    rw [Shape.rowMajor_val_three, Shape.rowMajor_val_two]
    rfl)

/-- The 4096 rows folded back to eight graphs. -/
theorem fold_apply (y : FVec Ideal S4096x64 .f32) (g : Fin 8) (d : Fin 512) (o : Fin 64) :
    shapeCast S8x512x64 y shapeCasts_S4096x64_S8x512x64 (ix3 g d o) = y (ix2 (GGNN.row g d) o) :=
  shapeCast_apply y shapeCasts_S4096x64_S8x512x64 _ _ (by
    rw [Shape.rowMajor_val_three, Shape.rowMajor_val_two]
    rfl)

/-- Layer matrix 0 cut out of the pair of matrices. -/
theorem w0_apply (w : FVec Ideal S2x64x64 .f32) (k o : Fin 64) :
    shapeCast S64x64 (extractStridedSlice S1x64x64 ![0, 0, 0] w slices_S2x64x64_S1x64x64_0_0_0) shapeCasts_S1x64x64_S64x64 (ix2 k o)
      = w (ix3 (0 : Fin 2) k o) := by
  refine (shapeCast_1ab_ab_apply _ shapeCasts_S1x64x64_S64x64 k o).trans ?_
  exact extractStridedSlice_apply _ w slices_S2x64x64_S1x64x64_0_0_0 _ _ (fun a => by
    match a with
    | ⟨0, _⟩ => rfl
    | ⟨1, _⟩ => exact (Nat.zero_add _).symm
    | ⟨2, _⟩ => exact (Nat.zero_add _).symm)

/-- Layer matrix 1 cut out of the pair of matrices. -/
theorem w1_apply (w : FVec Ideal S2x64x64 .f32) (k o : Fin 64) :
    shapeCast S64x64 (extractStridedSlice S1x64x64 ![1, 0, 0] w slices_S2x64x64_S1x64x64_1_0_0) shapeCasts_S1x64x64_S64x64 (ix2 k o)
      = w (ix3 (1 : Fin 2) k o) := by
  refine (shapeCast_1ab_ab_apply _ shapeCasts_S1x64x64_S64x64 k o).trans ?_
  exact extractStridedSlice_apply _ w slices_S2x64x64_S1x64x64_1_0_0 _ _ (fun a => by
    match a with
    | ⟨0, _⟩ => rfl
    | ⟨1, _⟩ => exact (Nat.zero_add _).symm
    | ⟨2, _⟩ => exact (Nat.zero_add _).symm)

/-! ## The stages of one layer, over any state array, layer matrix and gate weights

The reference computes each layer by the same operations; here they are with the state array H, the layer matrix and
the gate weights as parameters, so that one reading serves both layers. -/

/-- The host's logistic function of a + b: 1 / (1 + e^(−(a + b))). -/
def sigT (a b : FVec Ideal S4096x64 .f32) : FVec Ideal S4096x64 .f32 :=
  Host.divf (broadcastInDim S4096x64 ![] bcast_S_S4096x64 (constant (F := Ideal) S_ .f32 0x3F800000#32)) (addf (broadcastInDim S4096x64 ![] bcast_S_S4096x64 (constant (F := Ideal) S_ .f32 0x3F800000#32)) (Host.exp (Host.negf (addf a b))))

/-- A gate pre-activation: an array times the transposed gate matrix, plus the bias laid along the rows. -/
def linT (G : FVec Ideal S4096x64 .f32) (w : FVec Ideal S192x64 .f32) (b : FVec Ideal S192 .f32) : FVec Ideal S4096x192 .f32 :=
  addf (Host.dotGeneral dot_S4096x64_S64x192_S4096x192_1_0_0_1_n_n none G (transpose S64x192 [1, 0] w transposes_S192x64_S64x192_1_0)) (broadcastInDim S4096x192 ![0, 1] bcast_S1x192_S4096x192_0_1 (broadcastInDim S1x192 ![1] bcast_S192_S1x192_1 b))

/-- The aggregated messages of a state array: the aggregation of the states times the layer matrix. -/
def aggT (H : FVec Ideal S4096x64 .f32) (Wl : FVec Ideal S64x64 .f32) : FVec Ideal S4096x64 .f32 :=
  RefAgg.aggTerm V0 (Host.dotGeneral dot_S4096x64_S64x64_S4096x64_1_0_0_1_n_n none H Wl)

/-- The update gate: the logistic function of the middle thirds. -/
def zT (gi gh : FVec Ideal S4096x192 .f32) : FVec Ideal S4096x64 .f32 :=
  sigT (extractStridedSlice S4096x64 ![0, 64] gi slices_S4096x192_S4096x64_0_64) (extractStridedSlice S4096x64 ![0, 64] gh slices_S4096x192_S4096x64_0_64)

/-- The new state: (1 − z) · tanh (gi₂ + r · gh₂) + z · H with r the logistic function of the first thirds. -/
def nextT (z : FVec Ideal S4096x64 .f32) (gi gh : FVec Ideal S4096x192 .f32) (H : FVec Ideal S4096x64 .f32) : FVec Ideal S4096x64 .f32 :=
  addf (mulf (subf (broadcastInDim S4096x64 ![] bcast_S_S4096x64 (constant (F := Ideal) S_ .f32 0x3F800000#32)) z) (Host.tanh (addf (extractStridedSlice S4096x64 ![0, 128] gi slices_S4096x192_S4096x64_0_128) (mulf (sigT (extractStridedSlice S4096x64 ![0, 0] gi slices_S4096x192_S4096x64_0_0) (extractStridedSlice S4096x64 ![0, 0] gh slices_S4096x192_S4096x64_0_0)) (extractStridedSlice S4096x64 ![0, 128] gh slices_S4096x192_S4096x64_0_128))))) (mulf z H)

/-- The two layer matrices as the reference cuts them out of the pair. -/
def w0T (w : FVec Ideal S2x64x64 .f32) : FVec Ideal S64x64 .f32 :=
  shapeCast S64x64 (extractStridedSlice S1x64x64 ![0, 0, 0] w slices_S2x64x64_S1x64x64_0_0_0) shapeCasts_S1x64x64_S64x64
def w1T (w : FVec Ideal S2x64x64 .f32) : FVec Ideal S64x64 .f32 :=
  shapeCast S64x64 (extractStridedSlice S1x64x64 ![1, 0, 0] w slices_S2x64x64_S1x64x64_1_0_0) shapeCasts_S1x64x64_S64x64

/-! The reference's named stages are these terms. -/

theorem v88_eq : (res_main_v88 (F := Ideal) V0 : FVec Ideal S4096x192 .f32)
    = linT (aggT V0 (res_main_v66 (F := Ideal) V0) (w0T (V0 (Proc.devRef .tc main_arg2)))) (V0 (Proc.devRef .tc main_arg3)) (V0 (Proc.devRef .tc main_arg5)) := rfl
theorem v93_eq : (res_main_v93 (F := Ideal) V0 : FVec Ideal S4096x192 .f32)
    = linT (res_main_v66 (F := Ideal) V0) (V0 (Proc.devRef .tc main_arg4)) (V0 (Proc.devRef .tc main_arg6)) := rfl
theorem v113_eq : (res_main_v113 (F := Ideal) V0 : FVec Ideal S4096x64 .f32) = zT (res_main_v88 (F := Ideal) V0) (res_main_v93 (F := Ideal) V0) := rfl
theorem v121_eq : (res_main_v121 (F := Ideal) V0 : FVec Ideal S4096x64 .f32)
    = nextT (res_main_v113 (F := Ideal) V0) (res_main_v88 (F := Ideal) V0) (res_main_v93 (F := Ideal) V0) (res_main_v66 (F := Ideal) V0) := rfl
theorem v143_eq : (res_main_v143 (F := Ideal) V0 : FVec Ideal S4096x192 .f32)
    = linT (aggT V0 (res_main_v121 (F := Ideal) V0) (w1T (V0 (Proc.devRef .tc main_arg2)))) (V0 (Proc.devRef .tc main_arg3)) (V0 (Proc.devRef .tc main_arg5)) := rfl
theorem v148_eq : (res_main_v148 (F := Ideal) V0 : FVec Ideal S4096x192 .f32)
    = linT (res_main_v121 (F := Ideal) V0) (V0 (Proc.devRef .tc main_arg4)) (V0 (Proc.devRef .tc main_arg6)) := rfl
theorem v168_eq : (res_main_v168 (F := Ideal) V0 : FVec Ideal S4096x64 .f32) = zT (res_main_v143 (F := Ideal) V0) (res_main_v148 (F := Ideal) V0) := rfl
theorem v177_eq : val4 (F := Ideal) V0 (Proc.devRef .tc main_v177)
    = shapeCast S8x512x64 (nextT (res_main_v168 (F := Ideal) V0) (res_main_v143 (F := Ideal) V0) (res_main_v148 (F := Ideal) V0) (res_main_v121 (F := Ideal) V0)) shapeCasts_S4096x64_S8x512x64 :=
  val4_main_v177 (F := Ideal) V0

/-! ## The stages read at an entry: each is the real stage -/

/-- The host's logistic function at an entry where both operands are real. -/
theorem sig_apply (a b : FVec Ideal S4096x64 .f32) (i : S4096x64.Idx) (x y : ℝ) (ha : a i = ((x : ℝ) : EReal)) (hb : b i = ((y : ℝ) : EReal)) :
    sigT a b i = ((GGNN.sgm (x + y) : ℝ) : EReal) := by
  unfold sigT
  show Ideal.div ((broadcastInDim S4096x64 ![] bcast_S_S4096x64 (constant (F := Ideal) S_ .f32 0x3F800000#32)) i) ((broadcastInDim S4096x64 ![] bcast_S_S4096x64 (constant (F := Ideal) S_ .f32 0x3F800000#32)) i + Ideal.exp (-(a i + b i))) = _
  rw [one_apply, ha, hb, ← EReal.coe_add]
  exact GGNN.div_one_add_exp_neg_coe (x + y)

/-- The update gate at an entry of a row whose two pre-activations are real. -/
theorem z_apply (gi gh : FVec Ideal S4096x192 .f32) (r : Fin 4096) (o : Fin 64) (gir ghr : Fin 192 → ℝ)
    (hgi : ∀ j, gi (ix2 r j) = ((gir j : ℝ) : EReal)) (hgh : ∀ j, gh (ix2 r j) = ((ghr j : ℝ) : EReal)) :
    zT gi gh (ix2 r o) = ((GGNN.sgm (gir (c1 o) + ghr (c1 o)) : ℝ) : EReal) :=
  sig_apply _ _ _ _ _ ((third1_apply gi r o).trans (hgi _)) ((third1_apply gh r o).trans (hgh _))

/-- The new state at an entry of a row whose gate, pre-activations and old state are real. -/
theorem next_apply (z : FVec Ideal S4096x64 .f32) (gi gh : FVec Ideal S4096x192 .f32) (H : FVec Ideal S4096x64 .f32)
    (r : Fin 4096) (o : Fin 64) (zr h : ℝ) (gir ghr : Fin 192 → ℝ)
    (hz : z (ix2 r o) = ((zr : ℝ) : EReal)) (hgi : ∀ j, gi (ix2 r j) = ((gir j : ℝ) : EReal))
    (hgh : ∀ j, gh (ix2 r j) = ((ghr j : ℝ) : EReal)) (hH : H (ix2 r o) = ((h : ℝ) : EReal)) :
    nextT z gi gh H (ix2 r o)
      = (((1 - zr) * Real.tanh (gir (c2 o) + GGNN.sgm (gir (c0 o) + ghr (c0 o)) * ghr (c2 o)) + zr * h : ℝ) : EReal) := by
  unfold nextT
  show ((broadcastInDim S4096x64 ![] bcast_S_S4096x64 (constant (F := Ideal) S_ .f32 0x3F800000#32)) (ix2 r o) - z (ix2 r o))
        * Ideal.tanh (extractStridedSlice S4096x64 ![0, 128] gi slices_S4096x192_S4096x64_0_128 (ix2 r o)
            + sigT (extractStridedSlice S4096x64 ![0, 0] gi slices_S4096x192_S4096x64_0_0) (extractStridedSlice S4096x64 ![0, 0] gh slices_S4096x192_S4096x64_0_0) (ix2 r o)
              * extractStridedSlice S4096x64 ![0, 128] gh slices_S4096x192_S4096x64_0_128 (ix2 r o))
      + z (ix2 r o) * H (ix2 r o) = _
  rw [one_apply, hz, hH, third2_apply, third2_apply, hgi, hgh,
    sig_apply _ _ _ (gir (c0 o)) (ghr (c0 o)) ((third0_apply gi r o).trans (hgi _)) ((third0_apply gh r o).trans (hgh _)),
    show ((gir (c2 o) : ℝ) : EReal) + ((GGNN.sgm (gir (c0 o) + ghr (c0 o)) : ℝ) : EReal) * ((ghr (c2 o) : ℝ) : EReal)
      = ((gir (c2 o) + GGNN.sgm (gir (c0 o) + ghr (c0 o)) * ghr (c2 o) : ℝ) : EReal) from by rw [EReal.coe_add, EReal.coe_mul],
    Ideal.tanh_coe]
  simp only [EReal.coe_add, EReal.coe_mul, EReal.coe_sub]

/-- A gate pre-activation at an entry of a row where the array is real, for a real gate matrix and bias. -/
theorem lin_apply (G : FVec Ideal S4096x64 .f32) (w : FVec Ideal S192x64 .f32) (b : FVec Ideal S192 .f32)
    (r : Fin 4096) (j : Fin 192) (Gr : Fin 64 → ℝ) (wr : Mat 192 64) (br : Fin 192 → ℝ)
    (hG : ∀ k, G (ix2 r k) = ((Gr k : ℝ) : EReal)) (hw : ∀ j k, w (ix2 j k) = ((wr j k : ℝ) : EReal))
    (hb : ∀ j, b (ix1 j) = ((br j : ℝ) : EReal)) :
    linT G w b (ix2 r j) = (((∑ k : Fin 64, Gr k * wr j k) + br j : ℝ) : EReal) := by
  unfold linT
  rw [addf_apply, dot192_apply, bias_apply, hb, EReal.coe_add, GGNN.coe_sum]
  congr 1
  exact Finset.sum_congr rfl fun k _ => by rw [hG, wT_apply, hw, EReal.coe_mul]

/-- The aggregated messages at row g · 512 + d: the real aggregation of graph g. -/
theorem agg_apply (I : GGNN.Inputs)
    (h1 : (V0 (Proc.devRef .tc main_arg1) : S8x512x512.Idx → BitVec 32) = I.adj)
    (H : FVec Ideal S4096x64 .f32) (Hr : Fin 8 → Mat 512 64) (hH : ∀ g d k, H (ix2 (GGNN.row g d) k) = ((Hr g d k : ℝ) : EReal))
    (Wl : FVec Ideal S64x64 .f32) (Wr : Mat 64 64) (hW : ∀ k o, Wl (ix2 k o) = ((Wr k o : ℝ) : EReal))
    (g : Fin 8) (d : Fin 512) (k : Fin 64) :
    aggT V0 H Wl (ix2 (GGNN.row g d) k) = ((GGNN.aggR (I.A g) (Hr g) Wr d k : ℝ) : EReal) := by
  have hM : ∀ s : Fin 512, Host.dotGeneral (F := Ideal) dot_S4096x64_S64x64_S4096x64_1_0_0_1_n_n none H Wl (ix2 (GGNN.row g s) k)
      = ((∑ k' : Fin 64, Hr g s k' * Wr k' k : ℝ) : EReal) := fun s => by
    rw [dot64_apply, GGNN.coe_sum]
    exact Finset.sum_congr rfl fun k' _ => by rw [hH, hW, EReal.coe_mul]
  unfold aggT
  rw [RefAgg.aggTerm_apply]
  unfold GGNN.aggR
  rw [GGNN.coe_sum]
  refine Finset.sum_congr rfl fun s _ => ?_
  rw [hM, EReal.coe_mul, h1]
  rfl

/-- One layer at row g · 512 + d: the real layer of graph g. -/
theorem layer_apply (I : GGNN.Inputs)
    (h1 : (V0 (Proc.devRef .tc main_arg1) : S8x512x512.Idx → BitVec 32) = I.adj)
    (wih whh : FVec Ideal S192x64 .f32) (bih bhh : FVec Ideal S192 .f32)
    (h3 : ∀ j k, wih (ix2 j k) = ((I.Wih j k : ℝ) : EReal)) (h4 : ∀ j k, whh (ix2 j k) = ((I.Whh j k : ℝ) : EReal))
    (h5 : ∀ j, bih (ix1 j) = ((I.Bih j : ℝ) : EReal)) (h6 : ∀ j, bhh (ix1 j) = ((I.Bhh j : ℝ) : EReal))
    (H : FVec Ideal S4096x64 .f32) (Hr : Fin 8 → Mat 512 64) (hH : ∀ g d k, H (ix2 (GGNN.row g d) k) = ((Hr g d k : ℝ) : EReal))
    (Wl : FVec Ideal S64x64 .f32) (Wr : Mat 64 64) (hW : ∀ k o, Wl (ix2 k o) = ((Wr k o : ℝ) : EReal))
    (g : Fin 8) (d : Fin 512) (o : Fin 64) :
    nextT (zT (linT (aggT V0 H Wl) wih bih) (linT H whh bhh)) (linT (aggT V0 H Wl) wih bih) (linT H whh bhh) H (ix2 (GGNN.row g d) o)
      = ((GGNN.layerR (I.A g) (Hr g) Wr I.Wih I.Whh I.Bih I.Bhh d o : ℝ) : EReal) := by
  have hgi : ∀ j, linT (aggT V0 H Wl) wih bih (ix2 (GGNN.row g d) j)
      = ((GGNN.linR (GGNN.aggR (I.A g) (Hr g) Wr) I.Wih I.Bih d j : ℝ) : EReal) := fun j =>
    lin_apply _ wih bih _ j _ I.Wih I.Bih (agg_apply V0 I h1 H Hr hH Wl Wr hW g d) h3 h5
  have hgh : ∀ j, linT H whh bhh (ix2 (GGNN.row g d) j) = ((GGNN.linR (Hr g) I.Whh I.Bhh d j : ℝ) : EReal) := fun j =>
    lin_apply H whh bhh _ j _ I.Whh I.Bhh (hH g d) h4 h6
  rw [next_apply _ _ _ _ (GGNN.row g d) o _ _ _ _ (z_apply _ _ _ o _ _ hgi hgh) hgi hgh (hH g d o)]
  rfl

/-- With the float arguments arrays of real numbers, the reference's result array is the specification's result. -/
theorem final (I : GGNN.Inputs)
    (h0 : V0 (Proc.devRef .tc main_arg0) = (fun i => ((I.x i : ℝ) : EReal)))
    (h1 : V0 (Proc.devRef .tc main_arg1) = I.adj)
    (h2 : V0 (Proc.devRef .tc main_arg2) = (fun i => ((I.w i : ℝ) : EReal)))
    (h3 : V0 (Proc.devRef .tc main_arg3) = (fun i => ((I.wih i : ℝ) : EReal)))
    (h4 : V0 (Proc.devRef .tc main_arg4) = (fun i => ((I.whh i : ℝ) : EReal)))
    (h5 : V0 (Proc.devRef .tc main_arg5) = (fun i => ((I.bih i : ℝ) : EReal)))
    (h6 : V0 (Proc.devRef .tc main_arg6) = (fun i => ((I.bhh i : ℝ) : EReal))) :
    val4 V0 (Proc.devRef .tc main_v177) = GGNN.result I := by
  have hX : ∀ g d k, (res_main_v66 (F := Ideal) V0 : FVec Ideal S4096x64 .f32) (ix2 (GGNN.row g d) k) = ((I.X g d k : ℝ) : EReal) :=
    fun g d k => (flat_apply _ g d k).trans (congrFun h0 (ix3 g d k))
  have hW0 : ∀ k o, w0T (V0 (Proc.devRef .tc main_arg2)) (ix2 k o) = ((I.W 0 k o : ℝ) : EReal) :=
    fun k o => (w0_apply _ k o).trans (congrFun h2 _)
  have hW1 : ∀ k o, w1T (V0 (Proc.devRef .tc main_arg2)) (ix2 k o) = ((I.W 1 k o : ℝ) : EReal) :=
    fun k o => (w1_apply _ k o).trans (congrFun h2 _)
  have h3' : ∀ j k, (V0 (Proc.devRef .tc main_arg3) : FVec Ideal S192x64 .f32) (ix2 j k) = ((I.Wih j k : ℝ) : EReal) := fun j k => congrFun h3 _
  have h4' : ∀ j k, (V0 (Proc.devRef .tc main_arg4) : FVec Ideal S192x64 .f32) (ix2 j k) = ((I.Whh j k : ℝ) : EReal) := fun j k => congrFun h4 _
  have h5' : ∀ j, (V0 (Proc.devRef .tc main_arg5) : FVec Ideal S192 .f32) (ix1 j) = ((I.Bih j : ℝ) : EReal) := fun j => congrFun h5 _
  have h6' : ∀ j, (V0 (Proc.devRef .tc main_arg6) : FVec Ideal S192 .f32) (ix1 j) = ((I.Bhh j : ℝ) : EReal) := fun j => congrFun h6 _
  have hL1 : ∀ g d o, (res_main_v121 (F := Ideal) V0 : FVec Ideal S4096x64 .f32) (ix2 (GGNN.row g d) o) = ((I.H1 g d o : ℝ) : EReal) :=
    fun g d o => by
      rw [v121_eq, v113_eq, v88_eq, v93_eq]
      exact layer_apply V0 I h1 _ _ _ _ h3' h4' h5' h6' _ I.X hX _ (I.W 0) hW0 g d o
  funext i
  obtain ⟨g, d, o, rfl⟩ : ∃ (g : Fin 8) (d : Fin 512) (o : Fin 64), i = ix3 g d o := ⟨i 0, i 1, i 2, eq_ix3 i⟩
  rw [v177_eq, fold_apply, v168_eq, v143_eq, v148_eq]
  exact layer_apply V0 I h1 _ _ _ _ h3' h4' h5' h6' _ I.H1 hL1 _ (I.W 1) hW1 g d o

end Cert.ReferenceIdeal.RefLayer

end
-- ==== Proof.lean ====
/-
  A two-layer gated graph network on eight graphs: the kernel against its reference, over the extended reals.

  Both programs are proved equal to one specification over the real numbers (Proof/Spec.lean). Under the
  precondition every float input is a real number (Proof/Finite.lean), and then:
  * the kernel's grid point b computes graph b's two layers (Proof/KerValue.lean): its aggregation runs as
    (Aᵀ · H) · W, with the low part of its two-pass split equal to zero on real numbers, which is the reference's
    ∑ s, (H · W) (s, ·) · A (s, d) by exchanging two finite sums of real numbers; the eight blocks tile the result
    array (Proof/KerArray.lean);
  * the reference's gather, weighting and scatter-add over the complete edge list of each graph is, row by row, the
    same sum over the 512 sources (Proof/RefIdx.lean, Proof/RefAgg.lean), and its gate arithmetic is the
    specification's (Proof/RefLayer.lean).
  The frames are the generated ones; the two rewrites of the idealization are the narrowing to sixteen bits and back,
  the identity on extended reals.
-/
import proofs.«104106_g32573031973289_fold_wed_c4_852_6_alg».proof.Defs
import proofs.«104106_g32573031973289_fold_wed_c4_852_6_alg».proof.Proof.Gen.Kernel
import proofs.«104106_g32573031973289_fold_wed_c4_852_6_alg».proof.Proof.Gen.Kernel.Skeleton
import proofs.«104106_g32573031973289_fold_wed_c4_852_6_alg».proof.Proof.Gen.Kernel.Launch
import proofs.«104106_g32573031973289_fold_wed_c4_852_6_alg».proof.Proof.Gen.Kernel.Points
import proofs.«104106_g32573031973289_fold_wed_c4_852_6_alg».proof.Proof.Gen.Kernel.Frame
import proofs.«104106_g32573031973289_fold_wed_c4_852_6_alg».proof.Proof.Gen.KernelIdeal
import proofs.«104106_g32573031973289_fold_wed_c4_852_6_alg».proof.Proof.Gen.KernelIdeal.Skeleton
import proofs.«104106_g32573031973289_fold_wed_c4_852_6_alg».proof.Proof.Gen.KernelIdeal.Launch
import proofs.«104106_g32573031973289_fold_wed_c4_852_6_alg».proof.Proof.Gen.KernelIdeal.Points
import proofs.«104106_g32573031973289_fold_wed_c4_852_6_alg».proof.Proof.Gen.KernelIdeal.Frame
import proofs.«104106_g32573031973289_fold_wed_c4_852_6_alg».proof.Proof.Gen.ReferenceIdeal
import proofs.«104106_g32573031973289_fold_wed_c4_852_6_alg».proof.Proof.Gen.Pre_finite_inputs
import proofs.«104106_g32573031973289_fold_wed_c4_852_6_alg».proof.Proof.Gen.KernelIdeal.Value
import proofs.«104106_g32573031973289_fold_wed_c4_852_6_alg».proof.Proof.Gen.ReferenceIdeal.Run
import proofs.«104106_g32573031973289_fold_wed_c4_852_6_alg».proof.Proof.Spec
import proofs.«104106_g32573031973289_fold_wed_c4_852_6_alg».proof.Proof.Finite
import proofs.«104106_g32573031973289_fold_wed_c4_852_6_alg».proof.Proof.KerArray
import proofs.«104106_g32573031973289_fold_wed_c4_852_6_alg».proof.Proof.RefLayer
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing a 512 × 64 array to sixteen bits and widening it back is the identity on extended reals, twice. -/
theorem preserves : Cert.preserves_Kernel_KernelIdeal :=
  ⟨IdealRules.truncf_extf.statement Cert.KernelIdeal.S512x64 .f32 .bf16, IdealRules.truncf_extf.statement Cert.KernelIdeal.S512x64 .f32 .bf16⟩

/-- Both result arrays are the specification's result of the (real) inputs. -/
theorem algebraic : Cert.algebraic_KernelIdeal_ReferenceIdeal := by
  intro m ρ m' ρ' hpre hagree
  choose I hI using fun c => Cert.Finite.exists_inputs _ _ _ _ _ _ _ (hpre c)
  refine ⟨fun c => GGNN.result (I c), ?_, ?_⟩
  · refine (θ_run Cert.KernelIdeal.defs _ _).mono (fun r h c => ⟨(h c).1.trans ?_, (h c).2⟩)
      (Cert.KernelIdeal.Value.run_blocks (F := Ideal) m ρ)
    obtain ⟨h0, h1, h2, h3, h4, h5, h6⟩ := hI c
    exact Cert.KernelIdeal.KerArray.final m c (I c) h0 h1 h2 h3 h4 h5 h6
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hI c
    obtain ⟨a0, a1, a2, a3, a4, a5, a6⟩ := hagree c
    exact (Cert.ReferenceIdeal.Value.val4_main_v177 (F := Ideal) (launchContents m' c)).symm.trans
      (Cert.ReferenceIdeal.RefLayer.final (launchContents m' c) (I c) (a0.trans h0) (a1.trans h1) (a2.trans h2)
        (a3.trans h3) (a4.trans h4) (a5.trans h5) (a6.trans h6))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
